-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 91
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S850000x1, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42_0 : Ref sig .tc := ⟨.hbm, 59, rfl⟩
abbrev main_v42_1 : Ref sig .tc := ⟨.hbm, 60, rfl⟩
abbrev main_v42_2 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S850000x1, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .i32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S_, .i32⟩
  | .hbm, ⟨110, _⟩ => ⟨S850000, .i32⟩
  | .hbm, ⟨111, _⟩ => ⟨S850000, .i1⟩
  | .hbm, ⟨112, _⟩ => ⟨S_, .i32⟩
  | .hbm, ⟨113, _⟩ => ⟨S850000, .i32⟩
  | .hbm, ⟨114, _⟩ => ⟨S850000, .i32⟩
  | .hbm, ⟨115, _⟩ => ⟨S850000, .i32⟩
  | .hbm, ⟨116, _⟩ => ⟨S850000x1, .i32⟩
  | .hbm, ⟨117, _⟩ => ⟨S850000x128, .f32⟩
  | .hbm, ⟨118, _⟩ => ⟨S850000x128, .f32⟩
  | .hbm, ⟨119, _⟩ => ⟨S850000x128, .f32⟩
  | .hbm, ⟨120, _⟩ => ⟨S_, .f32⟩
  | .hbm, ⟨121, _⟩ => ⟨S50000x128, .f32⟩
  | .hbm, ⟨122, _⟩ => ⟨S850000x1, .i32⟩
  | .hbm, ⟨123, _⟩ => ⟨S50000x128, .f32⟩
  | .hbm, ⟨124, _⟩ => ⟨S1x128, .f32⟩
  | .hbm, ⟨125, _⟩ => ⟨S50000x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_10 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call1_cst : Ref sig .tc := ⟨.hbm, 105, rfl⟩
abbrev main_call1_v0 : Ref sig .tc := ⟨.hbm, 106, rfl⟩
abbrev main_v63 : Ref sig .tc := ⟨.hbm, 107, rfl⟩
abbrev main_v64 : Ref sig .tc := ⟨.hbm, 108, rfl⟩
abbrev main_c_11 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.GcnSpec.lean ====
/-
  The mathematics both programs compute, stated once over the extended reals.

  A graph of 50000 nodes and 800000 directed edges, each node also joined to itself (850000 edges in all). With
  deg(v) the number of edges ending at v (at least 1: the self edge), every edge e = (s -> d) carries the weight
  deg(s)^(-1/2) * deg(d)^(-1/2). One graph convolution of node features h with a 128 x 128 matrix W is

      conv(h, W)[v, q] = sum over edges e ending at v of (h W)[start(e), q] * weight(e).

  Layer 1 is conv(x, W1) + b1, normalised column by column with the batch mean and the biased batch variance,
  scaled by gamma, shifted by beta, and clamped below at 0; layer 2 is conv(layer 1, W2) + b2; the result is the
  sum of the two layers. The two programs differ in how the variance of a column is taken: as the mean of the
  squares minus the square of the mean, or as the mean of the squared distances to the mean. For a column of
  real numbers these agree.

  Edge ends are arbitrary 32-bit integers: a negative one is first raised by 50000; a read at an end outside the
  node range is clamped into it, an accumulation at such an end is dropped. The self edges are always in range.
-/
import Idealize.ShloMosaic.PureOps
import Idealize.ShloMosaic.PureOps.Ideal
import Idealize.ShloMosaic.Lib.ValueIdx

noncomputable section

namespace Cert.Gcn

open Idealize.ShloMosaic Idealize.ShloMosaic.ValueIdx

/-! ## Shapes -/

/-- nodes x features -/
abbrev SX : Shape := ⟨2, ![50000, 128]⟩
/-- features x features -/
abbrev SW : Shape := ⟨2, ![128, 128]⟩
/-- one value per feature -/
abbrev SB : Shape := ⟨1, ![128]⟩
/-- one value per node -/
abbrev SN : Shape := ⟨1, ![50000]⟩
/-- the two rows of edge ends -/
abbrev SEI : Shape := ⟨2, ![2, 800000]⟩
abbrev SE1 : Shape := ⟨2, ![1, 800000]⟩
abbrev SE0 : Shape := ⟨1, ![800000]⟩
/-- one value per edge, self edges included -/
abbrev SE : Shape := ⟨1, ![850000]⟩
/-- the same as a column -/
abbrev SEc : Shape := ⟨2, ![850000, 1]⟩
/-- edges x features -/
abbrev SEX : Shape := ⟨2, ![850000, 128]⟩
abbrev S0 : Shape := ⟨0, ![]⟩

/-! ## The shape relations the operations below ask for -/

theorem slices_row0 : SEI.Slices ![0, 0] SE1 := by decide
theorem slices_row1 : SEI.Slices ![1, 0] SE1 := by decide
theorem casts_SE1_SE0 : SE1.ShapeCasts SE0 := by decide
theorem concats_SE : Shape.Concatenates [SE0, SN] SE 0 := by decide
theorem bcast_S0_SE : S0.BroadcastsInDim SE (![] : Fin 0 → Fin SE.rank) := by decide
theorem bcast_S0_SN : S0.BroadcastsInDim SN (![] : Fin 0 → Fin SN.rank) := by decide
theorem bcast_S0_SX : S0.BroadcastsInDim SX (![] : Fin 0 → Fin SX.rank) := by decide
theorem bcast_SE_SEc : SE.BroadcastsInDim SEc (![0] : Fin 1 → Fin SEc.rank) := by decide
theorem bcast_SEc_SEX : SEc.BroadcastsInDim SEX (![0, 1] : Fin 2 → Fin SEX.rank) := by decide

/-- accumulate one value per edge at a node -/
def scatNode : ScatterDims SN SEc SE where
  updateWindowDims := []
  insertedWindowDims := [0]
  scatterDimsToOperandDims := [0]
  indexVectorDim := 1
  wf := by decide
/-- read one value per edge from a node -/
def gathNode : GatherDims SN SEc SE where
  offsetDims := []
  collapsedSliceDims := [0]
  operandBatchingDims := []
  startIndicesBatchingDims := []
  startIndexMap := [0]
  indexVectorDim := 1
  sliceSizes := ![1]
  wf := by decide
/-- read one feature row per edge from a node -/
def gathRow : GatherDims SX SEc SEX where
  offsetDims := [1]
  collapsedSliceDims := [0]
  operandBatchingDims := []
  startIndicesBatchingDims := []
  startIndexMap := [0]
  indexVectorDim := 1
  sliceSizes := ![1, 128]
  wf := by decide
/-- accumulate one feature row per edge at a node -/
def scatRow : ScatterDims SX SEc SEX where
  updateWindowDims := [1]
  insertedWindowDims := [0]
  scatterDimsToOperandDims := [0]
  indexVectorDim := 1
  wf := by decide

/-! ## The edges and their weights: the operations both programs apply, in the order they apply them -/

/-- A row of the edge-end table followed by the nodes themselves (the self edges). -/
def endsRow0 (ei : IVec SEI 32) : IVec SE 32 :=
  concatenate SE 0 [⟨SE0, shapeCast SE0 (extractStridedSlice SE1 ![0, 0] ei slices_row0) casts_SE1_SE0⟩, ⟨SN, iotaInDim SN 32 0⟩] concats_SE
def endsRow1 (ei : IVec SEI 32) : IVec SE 32 :=
  concatenate SE 0 [⟨SE0, shapeCast SE0 (extractStridedSlice SE1 ![1, 0] ei slices_row1) casts_SE1_SE0⟩, ⟨SN, iotaInDim SN 32 0⟩] concats_SE

/-- Edge ends as a reading position: a negative one raised by the node count, as a column. -/
def wrapCol (v : IVec SE 32) : IVec SEc 32 :=
  broadcastInDim SEc ![0] bcast_SE_SEc
    (select (cmpi .slt v (broadcastInDim SE ![] bcast_S0_SE (constantI S0 32 0#32)))
      (addi v (broadcastInDim SE ![] bcast_S0_SE (constantI S0 32 50000#32))) v)
/-- Edge ends as an accumulating position: as they are, as a column. -/
def plainCol (v : IVec SE 32) : IVec SEc 32 := broadcastInDim SEc ![0] bcast_SE_SEc v

/-- deg: the number of edges ending at each node. -/
def deg (ei : IVec SEI 32) : FVec Ideal SN .f32 :=
  Host.scatterAdd scatNode (broadcastInDim SN ![] bcast_S0_SN (constant (F := Ideal) S0 .f32 0x00000000#32))
    (plainCol (endsRow1 ei)) (broadcastInDim SE ![] bcast_S0_SE (constant (F := Ideal) S0 .f32 0x3F800000#32))
/-- deg^(-1/2) -/
def dis (ei : IVec SEI 32) : FVec Ideal SN .f32 := Host.rsqrt (deg ei)
/-- The weight of each edge, as a column. -/
def edgeWeight (ei : IVec SEI 32) : FVec Ideal SEc .f32 :=
  broadcastInDim SEc ![0] bcast_SE_SEc
    (mulf (Host.gather gathNode (dis ei) (wrapCol (endsRow0 ei))) (Host.gather gathNode (dis ei) (wrapCol (endsRow1 ei))))
/-- The aggregation over edges of already projected features hw: at node v, the sum over the edges ending at v of
    hw at the edge's start times the edge's weight. -/
def agg (hw : FVec Ideal SX .f32) (ei : IVec SEI 32) : FVec Ideal SX .f32 :=
  Host.scatterAdd scatRow (broadcastInDim SX ![] bcast_S0_SX (constant (F := Ideal) S0 .f32 0x00000000#32))
    (plainCol (endsRow1 ei))
    (mulf (Host.gather gathRow hw (wrapCol (endsRow0 ei))) (broadcastInDim SEX ![0, 1] bcast_SEc_SEX (edgeWeight ei)))

/-! ## The dense pieces, entry by entry -/

/-- An array from its entries. -/
def arr2 (f : Fin 50000 → Fin 128 → EReal) : FVec Ideal SX .f32 := fun i => f (i 0) (i 1)
theorem arr2_ix2 (f : Fin 50000 → Fin 128 → EReal) (p : Fin 50000) (q : Fin 128) : arr2 f (ix2 p q) = f p q := rfl
theorem arr2_apply (f : Fin 50000 → Fin 128 → EReal) (i : SX.Idx) : arr2 f i = f (i 0) (i 1) := rfl

/-- (h W)[p, q] -/
def mmAt (h : FVec Ideal SX .f32) (W : FVec Ideal SW .f32) (p : Fin 50000) (q : Fin 128) : EReal :=
  ∑ k : Fin 128, h (ix2 p k) * W (ix2 k q)

/-- The sum of column q. -/
def colSumAt (h : FVec Ideal SX .f32) (q : Fin 128) : EReal := ∑ p : Fin 50000, h (ix2 p q)
/-- The sum of the squares of column q. -/
def colSqSumAt (h : FVec Ideal SX .f32) (q : Fin 128) : EReal := ∑ p : Fin 50000, h (ix2 p q) * h (ix2 p q)

/-- 50000, as both programs spell it. -/
def nodeCount : EReal := Ideal.ofBits .f32 0x47435000#32
/-- The small number added to the variance, as both programs spell it. -/
def epsBN : EReal := Ideal.ofBits .f32 0x3727C5AC#32

/-- The mean of column q. -/
def meanAt (h : FVec Ideal SX .f32) (q : Fin 128) : EReal := Ideal.div (colSumAt h q) nodeCount
/-- The variance of column q as the mean of the squares minus the square of the mean. -/
def varMomentsAt (h : FVec Ideal SX .f32) (q : Fin 128) : EReal :=
  Ideal.div (colSqSumAt h q) nodeCount - meanAt h q * meanAt h q
/-- The variance of column q as the mean of the squared distances to the mean. -/
def varCenteredAt (h : FVec Ideal SX .f32) (q : Fin 128) : EReal :=
  Ideal.div (∑ p : Fin 50000, (h (ix2 p q) - meanAt h q) * (h (ix2 p q) - meanAt h q)) nodeCount

/-- Layer 1 before normalisation. -/
def preNorm (x : FVec Ideal SX .f32) (ei : IVec SEI 32) (W1 : FVec Ideal SW .f32) (b1 : FVec Ideal SB .f32) : FVec Ideal SX .f32 :=
  arr2 fun p q => agg (arr2 (mmAt x W1)) ei (ix2 p q) + b1 (ix1 q)

/-- Normalise each column with the given mean and variance, scale, shift, clamp below at 0. -/
def normRelu (h : FVec Ideal SX .f32) (mean var : Fin 128 → EReal) (gamma beta : FVec Ideal SB .f32) : FVec Ideal SX .f32 :=
  arr2 fun p q => max (gamma (ix1 q) * (h (ix2 p q) - mean q) * Ideal.rsqrt (var q + epsBN) + beta (ix1 q)) 0

/-- What the kernel program returns. -/
def outMoments (x : FVec Ideal SX .f32) (ei : IVec SEI 32) (W1 : FVec Ideal SW .f32) (b1 : FVec Ideal SB .f32)
    (W2 : FVec Ideal SW .f32) (b2 gamma beta : FVec Ideal SB .f32) : FVec Ideal SX .f32 :=
  arr2 fun p q =>
    normRelu (preNorm x ei W1 b1) (meanAt (preNorm x ei W1 b1)) (varMomentsAt (preNorm x ei W1 b1)) gamma beta (ix2 p q)
      + agg (arr2 (mmAt (normRelu (preNorm x ei W1 b1) (meanAt (preNorm x ei W1 b1)) (varMomentsAt (preNorm x ei W1 b1)) gamma beta) W2)) ei (ix2 p q)
      + b2 (ix1 q)

/-- What the reference program returns. -/
def outCentered (x : FVec Ideal SX .f32) (ei : IVec SEI 32) (W1 : FVec Ideal SW .f32) (b1 : FVec Ideal SB .f32)
    (W2 : FVec Ideal SW .f32) (b2 gamma beta : FVec Ideal SB .f32) : FVec Ideal SX .f32 :=
  arr2 fun p q =>
    normRelu (preNorm x ei W1 b1) (meanAt (preNorm x ei W1 b1)) (varCenteredAt (preNorm x ei W1 b1)) gamma beta (ix2 p q)
      + (agg (arr2 (mmAt (normRelu (preNorm x ei W1 b1) (meanAt (preNorm x ei W1 b1)) (varCenteredAt (preNorm x ei W1 b1)) gamma beta) W2)) ei (ix2 p q)
      + b2 (ix1 q))

/-! ## The regions' arrays, with the per-feature operands as [1, 128] rows (as the kernel hands them in) -/

/-- one row of features -/
abbrev SRow : Shape := ⟨2, ![1, 128]⟩

/-- A [1, 128] row from its entries. -/
def rowOf (f : Fin 128 → EReal) : FVec Ideal SRow .f32 := fun i => f (i 1)
theorem rowOf_ix2 (f : Fin 128 → EReal) (u : Fin 1) (q : Fin 128) : rowOf f (ix2 u q) = f q := rfl

/-- An array plus a row, the row added to every row of the array. -/
def addRow (a : FVec Ideal SX .f32) (b : FVec Ideal SRow .f32) : FVec Ideal SX .f32 :=
  arr2 fun p q => a (ix2 p q) + b (ix2 (0 : Fin 1) q)

/-- Normalise, scale, shift and clamp, the four per-feature operands as rows. -/
def normReluRows (h : FVec Ideal SX .f32) (mean var gamma beta : FVec Ideal SRow .f32) : FVec Ideal SX .f32 :=
  arr2 fun p q => max (gamma (ix2 (0 : Fin 1) q) * (h (ix2 p q) - mean (ix2 (0 : Fin 1) q))
      * Ideal.rsqrt (var (ix2 (0 : Fin 1) q) + epsBN) + beta (ix2 (0 : Fin 1) q)) 0

/-- The sum of two arrays and a row. -/
def addAddRow (h a : FVec Ideal SX .f32) (b : FVec Ideal SRow .f32) : FVec Ideal SX .f32 :=
  arr2 fun p q => h (ix2 p q) + a (ix2 p q) + b (ix2 (0 : Fin 1) q)

/-- An extended real that is a real number. -/
def IsReal (v : EReal) : Prop := ∃ r : ℝ, v = (r : EReal)

end Cert.Gcn

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.HostReads.lean ====
/-
  The kernel program's stretches of host operations between its regions, each read at the buffers a later region
  or stretch uses: the edge ends and weights (before the first region), the aggregation and the bias row (before
  the statistics region), the mean and variance rows and the scale and shift rows (before the normalisation region),
  the second aggregation and bias row (before the last region).
-/
import proofs.«112645_j60576218742837_1_alg».proof.Proof.Gen.KernelIdeal.Frame
import proofs.«112645_j60576218742837_1_alg».proof.Proof.GcnSpec
import proofs.«112645_j60576218742837_1_alg».proof.Proof.LibLayout
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gcn.HostReads

open Idealize.ShloMosaic Idealize.ShloMosaic.TcCoe Idealize.ShloMosaic.ValueIdx Idealize.SL.Sem Idealize.ShloMosaic.StableHlo
open Cert.KernelIdeal Cert.KernelIdeal.Gen Cert.Gcn

/-! ## The stretches' functions -/

theorem casts_SB_SRow : SB.ShapeCasts SRow := by decide
theorem bcast_S0_SRow : S0.BroadcastsInDim SRow (![] : Fin 0 → Fin SRow.rank) := by decide

/-- The aggregation over edges given the edge ends and weights as arrays (`agg` is this at the ends and weights
    computed from the edge table). -/
def aggOf (hw : FVec Ideal SX .f32) (src dst : IVec SE 32) (ew : FVec Ideal SEc .f32) : FVec Ideal SX .f32 :=
  Host.scatterAdd scatRow (broadcastInDim SX ![] bcast_S0_SX (constant (F := Ideal) S0 .f32 0x00000000#32))
    (plainCol dst)
    (mulf (Host.gather gathRow hw (wrapCol src)) (broadcastInDim SEX ![0, 1] bcast_SEc_SEX ew))

theorem agg_eq_aggOf (hw : FVec Ideal SX .f32) (ei : IVec SEI 32) :
    agg hw ei = aggOf hw (endsRow0 ei) (endsRow1 ei) (edgeWeight ei) := rfl

/-- A per-feature vector as a [1, 128] row. -/
def rowCast (b : FVec Ideal SB .f32) : FVec Ideal SRow .f32 := shapeCast SRow b casts_SB_SRow
theorem rowCast_apply (b : FVec Ideal SB .f32) (u : Fin 1) (q : Fin 128) : rowCast b (ix2 u q) = b (ix1 q) :=
  -- both positions are q: the one row is row 0
  shapeCast_apply b casts_SB_SRow _ _ (by
    have hu : u.val = 0 := by omega
    rw [Shape.rowMajor_val_one, Shape.rowMajor_val_two]
    show q.val = u.val * 128 + q.val
    rw [hu, Nat.zero_mul, Nat.zero_add])

/-- A row divided by the node count. -/
def divCount (r : FVec Ideal SRow .f32) : FVec Ideal SRow .f32 :=
  Host.divf r (broadcastInDim SRow ![] bcast_S0_SRow (constant (F := Ideal) S0 .f32 0x47435000#32))
theorem divCount_apply (r : FVec Ideal SRow .f32) (u : Fin 1) (q : Fin 128) :
    divCount r (ix2 u q) = Ideal.div (r (ix2 u q)) nodeCount := by
  -- the quotient is entrywise; the divisor's every entry is the one scalar, the node count's word
  show Ideal.div (r (ix2 u q))
      (broadcastInDim SRow ![] bcast_S0_SRow (constant (F := Ideal) S0 .f32 0x47435000#32) (ix2 u q)) = _
  rw [Cert.LibLayout.broadcastInDim_scalar_apply, constant_apply]
  rfl

/-! ## The reads

Each stretch is a fold of its operations over the contents it starts from; read at one buffer, the fold is the
composed term of the operations that feed that buffer, and that term is the stated function by definition. -/

variable (W : Valuation τ sig (Elt Ideal))

-- before the first region
theorem s0_ends0 : after (hostOps0 (F := Ideal)) W (Proc.devRef .tc main_v3) = endsRow0 (W (Proc.devRef .tc main_arg1)) := by
  after_results_simp
  rfl
theorem s0_ends1 : after (hostOps0 (F := Ideal)) W (Proc.devRef .tc main_v6) = endsRow1 (W (Proc.devRef .tc main_arg1)) := by
  after_results_simp
  rfl
theorem s0_weight : after (hostOps0 (F := Ideal)) W (Proc.devRef .tc main_v27) = edgeWeight (W (Proc.devRef .tc main_arg1)) := by
  after_results_simp
  rfl

-- before the statistics region
theorem s1_agg : after (hostOps1 (F := Ideal)) W (Proc.devRef .tc main_v40)
    = aggOf (W (Proc.devRef .tc main_v28)) (W (Proc.devRef .tc main_v3)) (W (Proc.devRef .tc main_v6)) (W (Proc.devRef .tc main_v27)) := by
  after_results_simp
  rfl
theorem s1_bias : after (hostOps1 (F := Ideal)) W (Proc.devRef .tc main_v41) = rowCast (W (Proc.devRef .tc main_arg3)) := by
  after_results
  rfl

-- before the normalisation region
theorem s2_mean : after (hostOps2 (F := Ideal)) W (Proc.devRef .tc main_v44) = divCount (W (Proc.devRef .tc main_v42_1)) := by
  after_results
  rfl
theorem s2_var : after (hostOps2 (F := Ideal)) W (Proc.devRef .tc main_v48)
    = subf (divCount (W (Proc.devRef .tc main_v42_2))) (mulf (divCount (W (Proc.devRef .tc main_v42_1))) (divCount (W (Proc.devRef .tc main_v42_1)))) := by
  after_results
  rfl
theorem s2_gamma : after (hostOps2 (F := Ideal)) W (Proc.devRef .tc main_v49) = rowCast (W (Proc.devRef .tc main_arg6)) := by
  after_results
  rfl
theorem s2_beta : after (hostOps2 (F := Ideal)) W (Proc.devRef .tc main_v50) = rowCast (W (Proc.devRef .tc main_arg7)) := by
  after_results
  rfl

-- before the last region
theorem s4_agg : after (hostOps4 (F := Ideal)) W (Proc.devRef .tc main_v64)
    = aggOf (W (Proc.devRef .tc main_v52)) (W (Proc.devRef .tc main_v3)) (W (Proc.devRef .tc main_v6)) (W (Proc.devRef .tc main_v27)) := by
  after_results_simp
  rfl
theorem s4_bias : after (hostOps4 (F := Ideal)) W (Proc.devRef .tc main_v65) = rowCast (W (Proc.devRef .tc main_arg5)) := by
  after_results
  rfl

end Cert.Gcn.HostReads

end
-- ==== Proof.RegionMatmul.lean ====
/-
  The two projection regions: ten row blocks of 5000 nodes, each block the product of the block's rows with the whole
  128 x 128 matrix. The blocks tile the node axis, so the array the region leaves is the product h W, entry by entry.
-/
import proofs.«112645_j60576218742837_1_alg».proof.Proof.Gen.KernelIdeal.Frame
import proofs.«112645_j60576218742837_1_alg».proof.Proof.GcnSpec
import proofs.«112645_j60576218742837_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionMatmul

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-! ## One block: rows of the block times the matrix -/

/-- Both accesses of a block start at its corner. -/
theorem corner : (![0, 0] : Fin 2 → Nat) = fun _ => 0 := funext fun a => by fin_cases a <;> rfl

/-- The product's dimension numbers are the plain rows-by-columns ones: contract the left operand's columns with the
    right operand's rows. -/
theorem dot_is_plain : dot_S5000x128_S128x128_S5000x128_1_0_0_1_n_n = DotDims.plain 5000 128 128 := rfl

/-- A block product accumulated into zero, read at (p, q): the sum over the shared coordinate k of A[p, k] B[k, q]. -/
theorem blockProduct_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  rw [dot_is_plain]
  exact (Ideal.matmul_constant_zero_apply _ none A B _).trans
    ((Ideal.dotGeneral_apply _ none HostSchedule.single A B _).symm.trans
      (Cert.LibLayout.dotGeneral_plain_apply none HostSchedule.single A B p q))

/-- What region 0's body stores, read at (p, q): the change of format is the identity on extended reals, so it is the
    product of the loaded blocks. -/
theorem pay0_apply (x0 : Vec Ideal S5000x128 .f32) (x1 : Vec Ideal S128x128 .f32) (p : Fin 5000) (q : Fin 128) :
    (k0_pay1 (F := Ideal) x0 x1) (ix2 p q) = ∑ k : Fin 128, x0 (ix2 p k) * x1 (ix2 k q) := by
  unfold k0_pay1
  exact blockProduct_apply _ _ p q

/-- If row p of the loaded block is row r of h and the loaded matrix is W, the body's entry (p, q) is (h W)[r, q]. -/
theorem pay0_entry (h : FVec Ideal SX .f32) (W : FVec Ideal SW .f32)
    (x0 : Vec Ideal S5000x128 .f32) (x1 : Vec Ideal S128x128 .f32) (r : Fin 50000) (p : Fin 5000) (q : Fin 128)
    (hx0 : ∀ k : Fin 128, x0 (ix2 p k) = h (ix2 r k))
    (hx1 : ∀ k : Fin 128, x1 (ix2 k q) = W (ix2 k q)) :
    (k0_pay1 (F := Ideal) x0 x1) (ix2 p q) = mmAt h W r q := by
  rw [pay0_apply]
  unfold mmAt
  exact Finset.sum_congr rfl fun k _ => by rw [hx0 k, hx1 k]

/-- What region 3's body stores, read at (p, q): the reshape to the same shape and the change of format are the
    identity, so it is the product of the loaded blocks. -/
theorem pay3_apply (x0 : Vec Ideal S5000x128 .f32) (x1 : Vec Ideal S128x128 .f32) (p : Fin 5000) (q : Fin 128) :
    (k3_pay1 (F := Ideal) x0 x1) (ix2 p q) = ∑ k : Fin 128, x0 (ix2 p k) * x1 (ix2 k q) := by
  unfold k3_pay1
  rw [shapeCast_self]
  exact blockProduct_apply _ _ p q

/-- If row p of the loaded block is row r of h and the loaded matrix is W, the body's entry (p, q) is (h W)[r, q]. -/
theorem pay3_entry (h : FVec Ideal SX .f32) (W : FVec Ideal SW .f32)
    (x0 : Vec Ideal S5000x128 .f32) (x1 : Vec Ideal S128x128 .f32) (r : Fin 50000) (p : Fin 5000) (q : Fin 128)
    (hx0 : ∀ k : Fin 128, x0 (ix2 p k) = h (ix2 r k))
    (hx1 : ∀ k : Fin 128, x1 (ix2 k q) = W (ix2 k q)) :
    (k3_pay1 (F := Ideal) x0 x1) (ix2 p q) = mmAt h W r q := by
  rw [pay3_apply]
  unfold mmAt
  exact Finset.sum_congr rfl fun k _ => by rw [hx0 k, hx1 k]

-- the buffer contents a region is entered from
variable (V : (c : Dev nD) → (b : Ref sig .tc) → Buf (Elt Ideal) ((c : Thread nD τ).loc b))

/-! ## Region 0: the blocks tile the node axis -/

/-- The index maps over the grid: the row blocks read and written at point t are block t of the node axis; the
    matrix is always its one block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product x W1. -/
theorem flushed0_eq (c : Dev nD) (t : Fin cfg0.N) :
    (dat0 (F := Ideal) V c).flushed 2 t
      = ((cfg0.win 2).blk t).view.read (Elt Ideal) (arr2 (mmAt (V c main_arg0) (V c main_arg2))) := by
  show (cfg0.win 2).cut (grid0.coords t) ((dat0 V c).after 2 t) = _
  rw [after0_2]
  unfold out0_2
  rw [View.canon_unit_zero corner]
  simp only [View.ld_unit_zero (S := S5000x128) corner, View.ld_unit_zero (S := S128x128) corner]
  obtain ⟨e0, e1, e2, e3, e4, e5⟩ := idx_facts0 t
  funext y
  -- the entry's row p and column q inside the block; its row in the array is t * 5000 + p
  obtain ⟨p, q, rfl⟩ : ∃ (p : Fin 5000) (q : Fin 128), y = ix2 p q := ⟨y 0, y 1, eq_ix2 y⟩
  have ht : t.val < 10 := lt_of_lt_of_eq t.isLt N_0
  have hr : t.val * 5000 + p.val < 50000 := by have := p.isLt; omega
  -- a block's coordinate in the array is block index times block size plus the coordinate inside the block
  have hout : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show (k0_pay1 (F := Ideal) (iblk0 V c 0 t) (iblk0 V c 1 t)) (ix2 p q)
    = arr2 (mmAt (V c main_arg0) (V c main_arg2)) (((cfg0.win 2).blk t).view.emb (ix2 p q))
  rw [hout, arr2_ix2]
  refine pay0_entry (V c main_arg0) (V c main_arg2) (iblk0 V c 0 t) (iblk0 V c 1 t) ⟨t.val * 5000 + p.val, hr⟩ p q
    (fun k => ?_) (fun k => ?_)
  · -- row p of the row block read at point t is row t * 5000 + p of x
    show V c main_arg0 (((cfg0.win 0).blk t).view.emb (ix2 p k)) = V c main_arg0 (ix2 (⟨t.val * 5000 + p.val, hr⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · -- the matrix's one block is the matrix
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Every entry of the array is written: row r lies in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨e0, e1, e2, e3, e4, e5⟩ := idx_facts0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- Region 0 leaves x W1 in its output array. -/
theorem arr_proj1 (c : Dev nD) :
    (dat0 (F := Ideal) V c).arrAt 2 cfg0.N = arr2 (mmAt (V c main_arg0) (V c main_arg2)) :=
  (dat0 (F := Ideal) V c).arrAt_eq_of_cover 2 _ (fun t _ => flushed0_eq V c t) cover0

/-! ## Region 3: the same blocks, of layer 1 and the second matrix -/

/-- The index maps over the grid: the row blocks read and written at point t are block t of the node axis; the
    matrix is always its one block. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of the product of layer 1 with W2. -/
theorem flushed3_eq (c : Dev nD) (t : Fin cfg3.N) :
    (dat3 (F := Ideal) V c).flushed 2 t
      = ((cfg3.win 2).blk t).view.read (Elt Ideal) (arr2 (mmAt (V c main_v51) (V c main_arg4))) := by
  show (cfg3.win 2).cut (grid3.coords t) ((dat3 V c).after 2 t) = _
  rw [after3_2]
  unfold out3_2
  rw [View.canon_unit_zero corner]
  simp only [View.ld_unit_zero (S := S5000x128) corner, View.ld_unit_zero (S := S128x128) corner]
  obtain ⟨e0, e1, e2, e3, e4, e5⟩ := idx_facts3 t
  funext y
  -- the entry's row p and column q inside the block; its row in the array is t * 5000 + p
  obtain ⟨p, q, rfl⟩ : ∃ (p : Fin 5000) (q : Fin 128), y = ix2 p q := ⟨y 0, y 1, eq_ix2 y⟩
  have ht : t.val < 10 := lt_of_lt_of_eq t.isLt N_3
  have hr : t.val * 5000 + p.val < 50000 := by have := p.isLt; omega
  -- a block's coordinate in the array is block index times block size plus the coordinate inside the block
  have hout : ((cfg3.win 2).blk t).view.emb (ix2 p q) = ix2 (⟨t.val * 5000 + p.val, hr⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  show (k3_pay1 (F := Ideal) (iblk3 V c 0 t) (iblk3 V c 1 t)) (ix2 p q)
    = arr2 (mmAt (V c main_v51) (V c main_arg4)) (((cfg3.win 2).blk t).view.emb (ix2 p q))
  rw [hout, arr2_ix2]
  refine pay3_entry (V c main_v51) (V c main_arg4) (iblk3 V c 0 t) (iblk3 V c 1 t) ⟨t.val * 5000 + p.val, hr⟩ p q
    (fun k => ?_) (fun k => ?_)
  · -- row p of the row block read at point t is row t * 5000 + p of layer 1
    show V c main_v51 (((cfg3.win 0).blk t).view.emb (ix2 p k)) = V c main_v51 (ix2 (⟨t.val * 5000 + p.val, hr⟩ : Fin 50000) k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · -- the matrix's one block is the matrix
    show V c main_arg4 (((cfg3.win 1).blk t).view.emb (ix2 k q)) = V c main_arg4 (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega

/-- An index of the array is in point t's block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v52).slice (win3_2.rect t)).set ↔ _
  rw [View.set_slice_whole, Rect.mem_set_unit]
  exact Iff.rfl

/-- Every entry of the array is written: row r lies in the block of point r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < grid3.N := by rw [hN]; omega
  obtain ⟨e0, e1, e2, e3, e4, e5⟩ := idx_facts3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- Region 3 leaves (layer 1) W2 in its output array. -/
theorem arr_proj2 (c : Dev nD) :
    (dat3 (F := Ideal) V c).arrAt 2 cfg3.N = arr2 (mmAt (V c main_v51) (V c main_arg4)) :=
  (dat3 (F := Ideal) V c).arrAt_eq_of_cover 2 _ (fun t _ => flushed3_eq V c t) cover3

end Cert.Gcn.RegionMatmul

end
-- ==== Proof.RegionStats.lean ====
/-
  The bias-and-statistics region: ten row blocks of 5000 nodes. Each point adds the bias row to its block and adds
  the block's column sums, and the column sums of its squares, to two rows carried from point to point (set to zero
  at the first point). After the last point the carried rows hold the column sums over all 50000 nodes.
-/
import proofs.«112645_j60576218742837_1_alg».proof.Proof.Gen.KernelIdeal.Frame
import proofs.«112645_j60576218742837_1_alg».proof.Proof.GcnSpec
import proofs.«112645_j60576218742837_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionStats

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-! ## What each case of the body leaves in each output, as a payload of the loaded blocks -/

section Pieces

variable {F : FTy → Type} [FloatOps F]

theorem hz : (![0, 0] : Fin 2 → Nat) = fun _ => 0 := funext fun a => by fin_cases a <;> rfl

/-- A later point leaves in the first output the biased block. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h4.read_unread, h5.read_unread,
    View.ld_unit_zero (S := S5000x128) hz, View.ld_unit_zero (S := S1x128) hz]

/-- A later point leaves in the second output the carried row plus the biased block's column sums. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h4.read_unread, h5.read_unread,
    View.ld_unit_zero (S := S5000x128) hz, View.ld_unit_zero (S := S1x128) hz]

/-- A later point leaves in the third output the carried row plus the column sums of the biased block's squares. -/
theorem out_B_4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz]
  simp only [View.readAt_eq_ld, h1.read_unread, h2.read_unread, h4.read_unread, h5.read_unread,
    View.ld_unit_zero (S := S5000x128) hz, View.ld_unit_zero (S := S1x128) hz]

/-- The first point leaves in the first output the biased block. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz]
  simp only [View.readAt_eq_ld, h1.read_unread, h2.read_unread, h4.read_unread, h5.read_unread,
    View.ld_unit_zero (S := S5000x128) hz, View.ld_unit_zero (S := S1x128) hz]

/-- The first point stores the zero row in the second output, reads it back and adds the block's column sums. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, h4.read_unread, h5.read_unread,
    View.ld_unit_zero (S := S5000x128) hz, View.ld_unit_zero (S := S1x128) hz]

/-- The first point stores the zero row in the third output, reads it back and adds the column sums of the squares. -/
theorem out_A_4 (c : Dev nD) (i : grid1.Coords) (a1 : Memref sig .tc .vmem S5000x128 .f32) (h1 : a1.IsWhole)
    (a2 : Memref sig .tc .vmem S1x128 .f32) (h2 : a2.IsWhole) (a3 : Memref sig .tc .vmem S5000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, h4.read_unread, h5.read_unread,
    View.ld_unit_zero (S := S5000x128) hz, View.ld_unit_zero (S := S1x128) hz]

end Pieces

/-! ## The payloads entry by entry, over the extended reals -/

section Payloads

/-- The biased block: the block's entry plus the bias row's entry of the same column. -/
theorem pay3_apply (x : FVec Ideal S5000x128 .f32) (b : FVec Ideal S1x128 .f32) (r : Fin 5000) (q : Fin 128) :
    k1_pay3 (F := Ideal) x b (ix2 r q) = x (ix2 r q) + b (ix2 (0 : Fin 1) q) := by
  unfold k1_pay3
  have e1 : shapeCast S5000x128 x shapeCasts_S5000x128_S5000x128 = x := shapeCast_self x _
  have e2 : shapeCast S1x128 b shapeCasts_S1x128_S1x128 = b := shapeCast_self b _
  show shapeCast S5000x128 x shapeCasts_S5000x128_S5000x128 (ix2 r q)
      + broadcastTo S5000x128 (shapeCast S1x128 b shapeCasts_S1x128_S1x128) broadcasts_S1x128_S5000x128 (ix2 r q) = _
  rw [e1, e2]
  exact congrArg (x (ix2 r q) + ·) (broadcastTo_1b_ab_apply b broadcasts_S1x128_S5000x128 r q)

/-- The zero rows the first point stores. -/
theorem pay1_apply (u : Fin 1) (q : Fin 128) : k1_pay1 (F := Ideal) (ix2 u q) = 0 := Ideal.ofBits_zero_f32
theorem pay2_apply (u : Fin 1) (q : Fin 128) : k1_pay2 (F := Ideal) (ix2 u q) = 0 := Ideal.ofBits_zero_f32

/-- A column sum of a block, as a row: the sum over the block's rows. -/
theorem colSumRow_apply (v : FVec Ideal S5000x128 .f32) (hacc : (0x00000000#32 : BitVec 32) = 0x00000000#32)
    (u : Fin 1) (q : Fin 128) :
    shapeCast S1x128 (multiReduction .add [0] S128 v 0x00000000#32 reduces_S5000x128_S128 (.inl rfl) hacc)
      shapeCasts_S128_S1x128 (ix2 u q) = ∑ r : Fin 5000, v (ix2 r q) := by
  refine (shapeCast_a_1a_apply _ shapeCasts_S128_S1x128 u q).trans ?_
  refine (Ideal.multiReduction_add_single v 0x00000000#32 reduces_S5000x128_S128 (.inl rfl) hacc (ix1 q)).trans ?_
  refine Finset.sum_congr rfl fun r _ => congrArg v ?_
  funext a
  match a with
  | ⟨0, _⟩ => rfl
  | ⟨1, _⟩ => rfl

/-- The second output's update: the carried entry plus the column's sum over the biased block. -/
theorem pay4_apply (x : FVec Ideal S5000x128 .f32) (b acc : FVec Ideal S1x128 .f32) (u : Fin 1) (q : Fin 128) :
    k1_pay4 (F := Ideal) x b acc (ix2 u q)
      = acc (ix2 u q) + ∑ r : Fin 5000, (x (ix2 r q) + b (ix2 (0 : Fin 1) q)) := by
  unfold k1_pay4
  have e1 : shapeCast S1x128 acc shapeCasts_S1x128_S1x128 = acc := shapeCast_self acc _
  show shapeCast S1x128 acc shapeCasts_S1x128_S1x128 (ix2 u q)
      + shapeCast S1x128 (multiReduction .add [0] S128 (k1_pay3 (F := Ideal) x b) 0x00000000#32 reduces_S5000x128_S128 (.inl rfl) rfl)
          shapeCasts_S128_S1x128 (ix2 u q) = _
  rw [e1]
  refine congrArg (acc (ix2 u q) + ·) ?_
  refine (colSumRow_apply (k1_pay3 (F := Ideal) x b) rfl u q).trans ?_
  exact Finset.sum_congr rfl fun r _ => pay3_apply x b r q

/-- The third output's update: the carried entry plus the column's sum of squares over the biased block. -/
theorem pay5_apply (x : FVec Ideal S5000x128 .f32) (b acc : FVec Ideal S1x128 .f32) (u : Fin 1) (q : Fin 128) :
    k1_pay5 (F := Ideal) x b acc (ix2 u q)
      = acc (ix2 u q) + ∑ r : Fin 5000, (x (ix2 r q) + b (ix2 (0 : Fin 1) q)) * (x (ix2 r q) + b (ix2 (0 : Fin 1) q)) := by
  unfold k1_pay5
  have e1 : shapeCast S1x128 acc shapeCasts_S1x128_S1x128 = acc := shapeCast_self acc _
  show shapeCast S1x128 acc shapeCasts_S1x128_S1x128 (ix2 u q)
      + shapeCast S1x128 (multiReduction .add [0] S128 (mulf (k1_pay3 (F := Ideal) x b) (k1_pay3 (F := Ideal) x b)) 0x00000000#32
          reduces_S5000x128_S128 (.inl rfl) rfl) shapeCasts_S128_S1x128 (ix2 u q) = _
  rw [e1]
  refine congrArg (acc (ix2 u q) + ·) ?_
  refine (colSumRow_apply (mulf (k1_pay3 (F := Ideal) x b) (k1_pay3 (F := Ideal) x b)) rfl u q).trans ?_
  refine Finset.sum_congr rfl fun r _ => ?_
  show k1_pay3 (F := Ideal) x b (ix2 r q) * k1_pay3 (F := Ideal) x b (ix2 r q) = _
  rw [pay3_apply]

end Payloads

-- the buffer contents a region is entered from
variable (V : (c : Dev nD) → (b : Ref sig .tc) → Buf (Elt Ideal) ((c : Thread nD τ).loc b))

/-! ## The arrays the region reads and each point's blocks of them -/

/-- The aggregated features and the bias row as the region finds them. -/
abbrev xarr (c : Dev nD) : FVec Ideal SX .f32 := V c main_v40
abbrev barr (c : Dev nD) : FVec Ideal SRow .f32 := V c main_v41
/-- Point t's block of each: rows 5000 t … of the features, the whole bias row. -/
abbrev xblk (c : Dev nD) (t : Fin cfg1.N) : FVec Ideal S5000x128 .f32 := iblk1 V c 0 t
abbrev bblk (c : Dev nD) (t : Fin cfg1.N) : FVec Ideal S1x128 .f32 := iblk1 V c 1 t

/-- Where each window's block sits at point t: windows 0 and 2 at row block t, the rows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (r, q) of point t's feature block is entry (5000 t + r, q) of the array. -/
theorem xblk_apply (c : Dev nD) (t : Fin cfg1.N) (r : Fin 5000) (q : Fin 128) (hp : 5000 * t.val + r.val < 50000) :
    xblk V c t (ix2 r q) = xarr V c (ix2 ⟨5000 * t.val + r.val, hp⟩ q) := by
  obtain ⟨e0, e1, -⟩ := idx_facts t
  show iblk1 V c 0 t (ix2 r q) = V c main_v40 _
  unfold iblk1
  rw [View.read_apply]
  show V c main_v40 _ = V c main_v40 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

/-- Entry (u, q) of any point's bias block is entry (0, q) of the bias row. -/
theorem bblk_apply (c : Dev nD) (t : Fin cfg1.N) (u : Fin 1) (q : Fin 128) :
    bblk V c t (ix2 u q) = barr V c (ix2 (0 : Fin 1) q) := by
  obtain ⟨-, -, e0, e1, -⟩ := idx_facts t
  show iblk1 V c 1 t (ix2 u q) = V c main_v41 _
  unfold iblk1
  rw [View.read_apply]
  show V c main_v41 _ = V c main_v41 _
  congr 1
  funext a
  apply Fin.ext
  match a with
  | ⟨0, _⟩ => show win1_1.index t (0 : Fin 2) * 1 + 1 * u.val = 0; rw [e0]; omega
  | ⟨1, _⟩ => show win1_1.index t (1 : Fin 2) * 128 + 1 * q.val = q.val; rw [e1]; omega

/-! ## Partial column sums -/

/-- A column of 50000 entries continued by zero, so that its partial sums run over ranges of naturals. -/
def padded (f : Fin 50000 → EReal) (p : ℕ) : EReal := if hp : p < 50000 then f ⟨p, hp⟩ else 0

theorem padded_of_lt (f : Fin 50000 → EReal) (p : ℕ) (hp : p < 50000) : padded f p = f ⟨p, hp⟩ := dif_pos hp

/-- The partial sum over all 50000 rows is the column's sum. -/
theorem sum_padded (f : Fin 50000 → EReal) : ∑ p ∈ Finset.range 50000, padded f p = ∑ p : Fin 50000, f p := by
  rw [Finset.sum_range]
  exact Finset.sum_congr rfl fun p _ => padded_of_lt f p.val p.isLt

/-- Column q of the biased array, and of its squares. -/
abbrev colOf (c : Dev nD) (q : Fin 128) : Fin 50000 → EReal :=
  fun p => xarr V c (ix2 p q) + barr V c (ix2 (0 : Fin 1) q)
abbrev sqColOf (c : Dev nD) (q : Fin 128) : Fin 50000 → EReal := fun p => colOf V c q p * colOf V c q p

/-- Point n's biased block summed down column q is the column's partial sum over rows 5000 n … 5000 n + 4999. -/
theorem blockSum_eq (c : Dev nD) (n : ℕ) (hn : n < cfg1.N) (q : Fin 128) :
    ∑ r : Fin 5000, (xblk V c ⟨n, hn⟩ (ix2 r q) + bblk V c ⟨n, hn⟩ (ix2 (0 : Fin 1) q))
      = ∑ r ∈ Finset.range 5000, padded (colOf V c q) (5000 * n + r) := by
  have hN : n < 10 := lt_of_lt_of_eq hn N_1
  rw [Finset.sum_range]
  refine Finset.sum_congr rfl fun r _ => ?_
  have hp : 5000 * n + r.val < 50000 := by have := r.isLt; omega
  rw [xblk_apply V c ⟨n, hn⟩ r q hp, bblk_apply V c ⟨n, hn⟩ 0 q]
  exact (padded_of_lt (colOf V c q) (5000 * n + r.val) hp).symm

/-- Likewise for the squares. -/
theorem blockSqSum_eq (c : Dev nD) (n : ℕ) (hn : n < cfg1.N) (q : Fin 128) :
    ∑ r : Fin 5000, (xblk V c ⟨n, hn⟩ (ix2 r q) + bblk V c ⟨n, hn⟩ (ix2 (0 : Fin 1) q))
        * (xblk V c ⟨n, hn⟩ (ix2 r q) + bblk V c ⟨n, hn⟩ (ix2 (0 : Fin 1) q))
      = ∑ r ∈ Finset.range 5000, padded (sqColOf V c q) (5000 * n + r) := by
  have hN : n < 10 := lt_of_lt_of_eq hn N_1
  rw [Finset.sum_range]
  refine Finset.sum_congr rfl fun r _ => ?_
  have hp : 5000 * n + r.val < 50000 := by have := r.isLt; omega
  rw [xblk_apply V c ⟨n, hn⟩ r q hp, bblk_apply V c ⟨n, hn⟩ 0 q]
  exact (padded_of_lt (sqColOf V c q) (5000 * n + r.val) hp).symm

/-! ## The carried rows after each point -/

/-- After point n the second output holds, at column q, the biased column's sum over the rows below 5000 (n + 1),
    and the third output the same sum of the squares: the first point starts from the zero rows, every later point
    adds its block's column sums to what the point before left. -/
theorem carried (c : Dev nD) : ∀ (n : ℕ) (hn : n < cfg1.N) (u : Fin 1) (q : Fin 128),
    ((outsAt1 V c n hn).2.1 : FVec Ideal S1x128 .f32) (ix2 u q)
        = ∑ p ∈ Finset.range (5000 * n + 5000), padded (colOf V c q) p
    ∧ ((outsAt1 V c n hn).2.2 : FVec Ideal S1x128 .f32) (ix2 u q)
        = ∑ p ∈ Finset.range (5000 * n + 5000), padded (sqColOf V c q) p
  | 0, hn, u, q => by
    have h0 : (⟨0, hn⟩ : Fin cfg1.N).val % 10 = 0 := rfl
    rw [outsAt1_A V c ⟨0, hn⟩ h0]
    dsimp only
    constructor
    · refine (congrFun (out_A_3 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr h0)
          (xblk V c ⟨0, hn⟩) (bblk V c ⟨0, hn⟩)) (ix2 u q)).trans ?_
      refine (pay4_apply (xblk V c ⟨0, hn⟩) (bblk V c ⟨0, hn⟩) (k1_pay1 (F := Ideal)) u q).trans ?_
      rw [pay1_apply, zero_add, blockSum_eq V c 0 hn q, Finset.sum_range_add, Nat.mul_zero, Finset.range_zero,
        Finset.sum_empty, zero_add]
    · refine (congrFun (out_A_4 (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr h0)
          (xblk V c ⟨0, hn⟩) (bblk V c ⟨0, hn⟩)) (ix2 u q)).trans ?_
      refine (pay5_apply (xblk V c ⟨0, hn⟩) (bblk V c ⟨0, hn⟩) (k1_pay2 (F := Ideal)) u q).trans ?_
      rw [pay2_apply, zero_add, blockSqSum_eq V c 0 hn q, Finset.sum_range_add, Nat.mul_zero, Finset.range_zero,
        Finset.sum_empty, zero_add]
  | n + 1, hn, u, q => by
    have hN : cfg1.N = 10 := N_1
    have hB : ¬(⟨n + 1, hn⟩ : Fin cfg1.N).val % 10 = 0 := by dsimp only; omega
    have ih := carried c n (Nat.lt_of_succ_lt hn) u q
    rw [outsAt1_B V c ⟨n + 1, hn⟩ hB]
    dsimp only
    constructor
    · refine (congrFun (out_B_3 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h))
          (xblk V c ⟨n + 1, hn⟩) (bblk V c ⟨n + 1, hn⟩) (outsAt1 V c n (Nat.lt_of_succ_lt hn)).2.1
          (outsAt1 V c n (Nat.lt_of_succ_lt hn)).2.2) (ix2 u q)).trans ?_
      refine (pay4_apply (xblk V c ⟨n + 1, hn⟩) (bblk V c ⟨n + 1, hn⟩) (outsAt1 V c n (Nat.lt_of_succ_lt hn)).2.1 u q).trans ?_
      rw [ih.1, blockSum_eq V c (n + 1) hn q, Finset.sum_range_add _ (5000 * (n + 1)) 5000, Nat.mul_succ]
    · refine (congrFun (out_B_4 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => hB ((hcond1_0 ⟨n + 1, hn⟩).mp h))
          (xblk V c ⟨n + 1, hn⟩) (bblk V c ⟨n + 1, hn⟩) (outsAt1 V c n (Nat.lt_of_succ_lt hn)).2.1
          (outsAt1 V c n (Nat.lt_of_succ_lt hn)).2.2) (ix2 u q)).trans ?_
      refine (pay5_apply (xblk V c ⟨n + 1, hn⟩) (bblk V c ⟨n + 1, hn⟩) (outsAt1 V c n (Nat.lt_of_succ_lt hn)).2.2 u q).trans ?_
      rw [ih.2, blockSqSum_eq V c (n + 1) hn q, Finset.sum_range_add _ (5000 * (n + 1)) 5000, Nat.mul_succ]

/-! ## The first output: every point writes back its biased block -/

/-- Either case leaves the biased block in the first output. -/
theorem out2_eq (c : Dev nD) (t : Fin cfg1.N) :
    ((outsAt1 V c t.val t.isLt).1 : FVec Ideal S5000x128 .f32) = k1_pay3 (F := Ideal) (xblk V c t) (bblk V c t) := by
  by_cases h0 : t.val % 10 = 0
  · rw [outsAt1_A V c t h0]
    dsimp only
    exact out_A_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (xblk V c t) (bblk V c t)
  · rw [outsAt1_B V c t h0]
    dsimp only
    exact out_B_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xblk V c t) (bblk V c t)
      (outsAt1 V c (t.val - 1) (Nat.lt_of_le_of_lt (Nat.sub_le _ _) t.isLt)).2.1
      (outsAt1 V c (t.val - 1) (Nat.lt_of_le_of_lt (Nat.sub_le _ _) t.isLt)).2.2

/-- What point t writes back to the first output is row block t of the biased array. -/
theorem flushed_biased (c : Dev nD) (t : Fin cfg1.N) :
    (dat1 (F := Ideal) V c).flushed 2 t
      = ((cfg1.win 2).blk t).view.read (Elt Ideal) (addRow (xarr V c) (barr V c)) := by
  have hN : t.val < 10 := lt_of_lt_of_eq t.isLt N_1
  obtain ⟨-, -, -, -, e0, e1, -⟩ := idx_facts t
  show (cfg1.win 2).cut (grid1.coords t) ((dat1 (F := Ideal) V c).after 2 t) = _
  rw [after1_2, out2_eq]
  funext j
  obtain ⟨r, q, rfl⟩ : ∃ (r : Fin 5000) (q : Fin 128), j = ix2 r q := ⟨j 0, j 1, eq_ix2 j⟩
  have hp : 5000 * t.val + r.val < 50000 := by have := r.isLt; omega
  -- a block's entry sits in the array at the block index times the block's extent plus its place in the block
  have hemb : ((cfg1.win 2).blk t).view.emb (ix2 r q) = ix2 (⟨5000 * t.val + r.val, hp⟩ : Fin 50000) q := by
    funext a; apply Fin.ext
    match a with
    | ⟨0, _⟩ => show win1_2.index t (0 : Fin 2) * 5000 + 1 * r.val = 5000 * t.val + r.val; omega
    | ⟨1, _⟩ => show win1_2.index t (1 : Fin 2) * 128 + 1 * q.val = q.val; omega
  show k1_pay3 (F := Ideal) (xblk V c t) (bblk V c t) (ix2 r q)
    = addRow (xarr V c) (barr V c) (((cfg1.win 2).blk t).view.emb (ix2 r q))
  rw [hemb]
  refine (pay3_apply (xblk V c t) (bblk V c t) r q).trans ?_
  rw [xblk_apply V c t r q hp, bblk_apply V c t 0 q]
  rfl

/-- An index of the first output's array is in point t's block iff each coordinate is in the block's range. -/
theorem mem_blk2 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v42_0).slice (win1_2.rect t)).set ↔ _
  rw [View.set_slice_whole, Rect.mem_set_unit]
  exact Iff.rfl

/-- Row p of the first output's array is in the block of point p / 5000. -/
theorem cover_biased (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, e0, e1, -⟩ := idx_facts t
  refine ⟨t, flush1_2 t, ?_⟩
  rw [mem_blk2]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The first output: the aggregated features plus the bias row. -/
theorem arr_biased (c : Dev nD) :
    (dat1 (F := Ideal) V c).arrAt 2 cfg1.N = addRow (V c main_v40) (V c main_v41) :=
  (dat1 V c).arrAt_eq_of_cover 2 _ (fun t _ => flushed_biased V c t) cover_biased

/-! ## The carried rows: written back once, after the last point, when they hold the whole columns' sums -/

/-- The biased array's column sums, and its squares', are the sums of the columns named above. -/
theorem colSumAt_biased (c : Dev nD) (q : Fin 128) :
    colSumAt (addRow (xarr V c) (barr V c)) q = ∑ p : Fin 50000, colOf V c q p := by
  unfold colSumAt
  exact Finset.sum_congr rfl fun p _ => rfl
theorem colSqSumAt_biased (c : Dev nD) (q : Fin 128) :
    colSqSumAt (addRow (xarr V c) (barr V c)) q = ∑ p : Fin 50000, sqColOf V c q p := by
  unfold colSqSumAt
  exact Finset.sum_congr rfl fun p _ => rfl

theorem rows_all : 5000 * 9 + 5000 = 50000 := by decide

/-- The one write-back of the second output, at the last point, writes the row of the whole columns' sums (named g
    here, whatever spells them): its block is the whole row. -/
theorem flushed_colSum (c : Dev nD) (t : Fin cfg1.N) (hf : (cfg1.win 3).flush t = true) (g : Fin 128 → EReal)
    (hg : ∀ q, ∑ p ∈ Finset.range 50000, padded (colOf V c q) p = g q) :
    (dat1 (F := Ideal) V c).flushed 3 t = ((cfg1.win 3).blk t).view.read (Elt Ideal) (rowOf g) := by
  have hN : t.val < 10 := lt_of_lt_of_eq t.isLt N_1
  have h9 : t.val = 9 := by have := (flush1_3 t).mp hf; omega
  obtain ⟨-, -, -, -, -, -, e0, e1, -⟩ := idx_facts t
  show (cfg1.win 3).cut (grid1.coords t) ((dat1 (F := Ideal) V c).after 3 t) = _
  rw [after1_3]
  funext j
  obtain ⟨u, q, rfl⟩ : ∃ (u : Fin 1) (q : Fin 128), j = ix2 u q := ⟨j 0, j 1, eq_ix2 j⟩
  have hu : u.val = 0 := by have := u.isLt; omega
  have hemb : ((cfg1.win 3).blk t).view.emb (ix2 u q) = ix2 (0 : Fin 1) q := by
    funext a; apply Fin.ext
    match a with
    | ⟨0, _⟩ => show win1_3.index t (0 : Fin 2) * 1 + 1 * u.val = 0; omega
    | ⟨1, _⟩ => show win1_3.index t (1 : Fin 2) * 128 + 1 * q.val = q.val; omega
  show ((outsAt1 V c t.val t.isLt).2.1 : FVec Ideal S1x128 .f32) (ix2 u q)
    = rowOf g (((cfg1.win 3).blk t).view.emb (ix2 u q))
  rw [hemb, (carried V c t.val t.isLt u q).1, h9, rows_all]
  exact hg q

/-- Likewise the third output's, the columns' sums of squares. -/
theorem flushed_colSqSum (c : Dev nD) (t : Fin cfg1.N) (hf : (cfg1.win 4).flush t = true) (g : Fin 128 → EReal)
    (hg : ∀ q, ∑ p ∈ Finset.range 50000, padded (sqColOf V c q) p = g q) :
    (dat1 (F := Ideal) V c).flushed 4 t = ((cfg1.win 4).blk t).view.read (Elt Ideal) (rowOf g) := by
  have hN : t.val < 10 := lt_of_lt_of_eq t.isLt N_1
  have h9 : t.val = 9 := by have := (flush1_4 t).mp hf; omega
  obtain ⟨-, -, -, -, -, -, -, -, e0, e1⟩ := idx_facts t
  show (cfg1.win 4).cut (grid1.coords t) ((dat1 (F := Ideal) V c).after 4 t) = _
  rw [after1_4]
  funext j
  obtain ⟨u, q, rfl⟩ : ∃ (u : Fin 1) (q : Fin 128), j = ix2 u q := ⟨j 0, j 1, eq_ix2 j⟩
  have hu : u.val = 0 := by have := u.isLt; omega
  have hemb : ((cfg1.win 4).blk t).view.emb (ix2 u q) = ix2 (0 : Fin 1) q := by
    funext a; apply Fin.ext
    match a with
    | ⟨0, _⟩ => show win1_4.index t (0 : Fin 2) * 1 + 1 * u.val = 0; omega
    | ⟨1, _⟩ => show win1_4.index t (1 : Fin 2) * 128 + 1 * q.val = q.val; omega
  show ((outsAt1 V c t.val t.isLt).2.2 : FVec Ideal S1x128 .f32) (ix2 u q)
    = rowOf g (((cfg1.win 4).blk t).view.emb (ix2 u q))
  rw [hemb, (carried V c t.val t.isLt u q).2, h9, rows_all]
  exact hg q

/-- An index of a carried row's array is in point t's block iff each coordinate is in the block's range. -/
theorem mem_blk3 (t : Fin cfg1.N) (i : S1x128.Idx) :
    i ∈ ((cfg1.win 3).blk t).view.set ↔ ∀ a : Fin 2, win1_3.index t a * S1x128.size a ≤ (i a).val
      ∧ (i a).val < win1_3.index t a * S1x128.size a + S1x128.size a := by
  show i ∈ ((View.whole main_v42_1).slice (win1_3.rect t)).set ↔ _
  rw [View.set_slice_whole, Rect.mem_set_unit]
  exact Iff.rfl
theorem mem_blk4 (t : Fin cfg1.N) (i : S1x128.Idx) :
    i ∈ ((cfg1.win 4).blk t).view.set ↔ ∀ a : Fin 2, win1_4.index t a * S1x128.size a ≤ (i a).val
      ∧ (i a).val < win1_4.index t a * S1x128.size a + S1x128.size a := by
  show i ∈ ((View.whole main_v42_2).slice (win1_4.rect t)).set ↔ _
  rw [View.set_slice_whole, Rect.mem_set_unit]
  exact Iff.rfl

/-- The last point. -/
def tLast : Fin cfg1.N := ⟨9, by show _ < grid1.N; rw [N_1]; decide⟩

/-- The last point's block of a carried row is the whole row. -/
theorem cover_colSum (i : S1x128.Idx) :
    ∃ t : Fin cfg1.N, (cfg1.win 3).flush t = true ∧ i ∈ ((cfg1.win 3).blk t).view.set := by
  have hi0 : (i 0).val < 1 := (i 0).isLt
  have hi1 : (i 1).val < 128 := (i 1).isLt
  obtain ⟨-, -, -, -, -, -, e0, e1, -⟩ := idx_facts tLast
  refine ⟨tLast, (flush1_3 tLast).mpr rfl, ?_⟩
  rw [mem_blk3]
  intro a
  match a with
  | ⟨0, _⟩ =>
    show win1_3.index tLast (0 : Fin 2) * 1 ≤ (i 0).val ∧ (i 0).val < win1_3.index tLast (0 : Fin 2) * 1 + 1
    omega
  | ⟨1, _⟩ =>
    show win1_3.index tLast (1 : Fin 2) * 128 ≤ (i 1).val ∧ (i 1).val < win1_3.index tLast (1 : Fin 2) * 128 + 128
    omega
theorem cover_colSqSum (i : S1x128.Idx) :
    ∃ t : Fin cfg1.N, (cfg1.win 4).flush t = true ∧ i ∈ ((cfg1.win 4).blk t).view.set := by
  have hi0 : (i 0).val < 1 := (i 0).isLt
  have hi1 : (i 1).val < 128 := (i 1).isLt
  obtain ⟨-, -, -, -, -, -, -, -, e0, e1⟩ := idx_facts tLast
  refine ⟨tLast, (flush1_4 tLast).mpr rfl, ?_⟩
  rw [mem_blk4]
  intro a
  match a with
  | ⟨0, _⟩ =>
    show win1_4.index tLast (0 : Fin 2) * 1 ≤ (i 0).val ∧ (i 0).val < win1_4.index tLast (0 : Fin 2) * 1 + 1
    omega
  | ⟨1, _⟩ =>
    show win1_4.index tLast (1 : Fin 2) * 128 ≤ (i 1).val ∧ (i 1).val < win1_4.index tLast (1 : Fin 2) * 128 + 128
    omega

/-- The second output: the column sums of the first. -/
theorem arr_colSum (c : Dev nD) :
    (dat1 (F := Ideal) V c).arrAt 3 cfg1.N = rowOf (colSumAt (addRow (V c main_v40) (V c main_v41))) :=
  (dat1 V c).arrAt_eq_of_cover 3 _
    (fun t hf => flushed_colSum V c t hf _ fun q => (sum_padded _).trans (colSumAt_biased V c q).symm) cover_colSum

/-- The third output: the column sums of the squares of the first. -/
theorem arr_colSqSum (c : Dev nD) :
    (dat1 (F := Ideal) V c).arrAt 4 cfg1.N = rowOf (colSqSumAt (addRow (V c main_v40) (V c main_v41))) :=
  (dat1 V c).arrAt_eq_of_cover 4 _
    (fun t hf => flushed_colSqSum V c t hf _ fun q => (sum_padded _).trans (colSqSumAt_biased V c q).symm) cover_colSqSum

end Cert.Gcn.RegionStats

end
-- ==== Proof.RegionNorm.lean ====
/-
  The normalisation region: ten row blocks of 5000 nodes, each entry normalised with its column's mean and variance
  (rows handed in whole), scaled, shifted, and clamped below at 0.
-/
import proofs.«112645_j60576218742837_1_alg».proof.Proof.Gen.KernelIdeal.Frame
import proofs.«112645_j60576218742837_1_alg».proof.Proof.GcnSpec
import proofs.«112645_j60576218742837_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionNorm

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

-- the buffer contents a region is entered from
variable (V : (c : Dev nD) → (b : Ref sig .tc) → Buf (Elt Ideal) ((c : Thread nD τ).loc b))

/-- The two zero offsets of a whole-block access, as a function. -/
theorem hz : (![0, 0] : Fin 2 → Nat) = fun _ => 0 := funext fun a => by
  match a with
  | ⟨0, _⟩ => rfl
  | ⟨1, _⟩ => rfl

/-- An entrywise inverse square root, read at an index. -/
theorem rsqrt_apply {s : Shape} {φ : FTy} (a : FVec Ideal s φ) (i : s.Idx) : rsqrt a i = Ideal.rsqrt (a i) := rfl

/-- The body's arithmetic at an entry (p, q) of a block: the entry of h less its column's mean, times the column's
    scale, times the inverse square root of the column's variance plus the small number, plus the column's shift,
    clamped below at 0. Each row operand is read at its one row. -/
theorem pay_apply (x0 : Vec Ideal S5000x128 .f32) (vr gm mn bt : Vec Ideal S1x128 .f32) (p : Fin 5000) (q : Fin 128) :
    k2_pay1 (F := Ideal) x0 vr gm mn bt (ix2 p q)
      = max (gm (ix2 (0 : Fin 1) q) * (x0 (ix2 p q) - mn (ix2 (0 : Fin 1) q)) * Ideal.rsqrt (vr (ix2 (0 : Fin 1) q) + epsBN)
          + bt (ix2 (0 : Fin 1) q)) 0 := by
  unfold k2_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [rsqrt_apply, addf_apply, broadcast_apply]
  -- the clamp's zero is the real 0; the small number is the same word on both sides
  have h0 : (FloatOps.ofBits (F := Ideal) .f32 0x00000000#32) = (0 : EReal) := Ideal.ofBits_zero_f32
  rw [h0]
  rfl

/-- Where the windows' blocks sit, decided over the ten points: the block of h moves with the output's block, the
    four rows stay at block (0, 0), and the output's block at point t is row block t. -/
theorem idx_facts : ∀ t : Fin cfg2.N, win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is row block t of the normalised, scaled, shifted and clamped array. -/
theorem block_written (c : Dev nD) (t : Fin cfg2.N) :
    (dat2 (F := Ideal) V c).flushed 5 t = ((cfg2.win 5).blk t).view.read (Elt Ideal)
      (normReluRows (V c main_v42_0) (V c main_v44) (V c main_v48) (V c main_v49) (V c main_v50)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  have ht : t.val < 10 := lt_of_lt_of_eq t.isLt N_2
  have hrow : t.val * 5000 + p.val < 50000 := by have := p.isLt; omega
  -- entry (p, q) of row block t is entry (5000 t + p, q) of the array, for the output and for h alike
  have o5 : ((cfg2.win 5).blk t).view.emb (ix2 p q) = ix2 (⟨t.val * 5000 + p.val, hrow⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  have r0 : ((cfg2.win 0).blk t).view.emb (ix2 p q) = ix2 (⟨t.val * 5000 + p.val, hrow⟩ : Fin 50000) q := by
    funext a; apply Fin.ext
    match a with
    | ⟨0, _⟩ => show win2_0.index t (0 : Fin 2) * 5000 + 1 * p.val = t.val * 5000 + p.val; omega
    | ⟨1, _⟩ => show win2_0.index t (1 : Fin 2) * 128 + 1 * q.val = q.val; omega
  have b0 : iblk2 V c 0 t (ix2 p q) = V c main_v42_0 (ix2 (⟨t.val * 5000 + p.val, hrow⟩ : Fin 50000) q) := by
    show V c main_v42_0 (((cfg2.win 0).blk t).view.emb (ix2 p q)) = _
    rw [r0]
  -- each of the four rows is handed in whole: its block's entry (0, q) is the row's own
  have r1 : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have b1 : iblk2 V c 1 t (ix2 (0 : Fin 1) q) = V c main_v44 (ix2 (0 : Fin 1) q) := by
    show V c main_v44 (((cfg2.win 1).blk t).view.emb (ix2 (0 : Fin 1) q)) = _
    rw [r1]
  have r2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have b2 : iblk2 V c 2 t (ix2 (0 : Fin 1) q) = V c main_v48 (ix2 (0 : Fin 1) q) := by
    show V c main_v48 (((cfg2.win 2).blk t).view.emb (ix2 (0 : Fin 1) q)) = _
    rw [r2]
  have r3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have b3 : iblk2 V c 3 t (ix2 (0 : Fin 1) q) = V c main_v49 (ix2 (0 : Fin 1) q) := by
    show V c main_v49 (((cfg2.win 3).blk t).view.emb (ix2 (0 : Fin 1) q)) = _
    rw [r3]
  have r4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 128 + 1 * q.val = q.val; omega
  have b4 : iblk2 V c 4 t (ix2 (0 : Fin 1) q) = V c main_v50 (ix2 (0 : Fin 1) q) := by
    show V c main_v50 (((cfg2.win 4).blk t).view.emb (ix2 (0 : Fin 1) q)) = _
    rw [r4]
  show k2_pay1 (F := Ideal) (iblk2 V c 0 t) (iblk2 V c 2 t) (iblk2 V c 3 t) (iblk2 V c 1 t) (iblk2 V c 4 t) (ix2 p q)
    = normReluRows (V c main_v42_0) (V c main_v44) (V c main_v48) (V c main_v49) (V c main_v50)
        (((cfg2.win 5).blk t).view.emb (ix2 p q))
  rw [o5]
  refine (pay_apply (iblk2 V c 0 t) (iblk2 V c 2 t) (iblk2 V c 3 t) (iblk2 V c 1 t) (iblk2 V c 4 t) p q).trans ?_
  rw [b0, b1, b2, b3, b4]
  rfl

/-- An index of the array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v51).slice (win2_5.rect t)).set ↔ _
  rw [View.set_slice_whole, Rect.mem_set_unit]
  exact Iff.rfl

/-- The ten row blocks fill the array: node r lies in the block of point r / 5000. -/
theorem blocks_fill (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, -, -, e50, e51⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

theorem arr_norm (c : Dev nD) :
    (dat2 (F := Ideal) V c).arrAt 5 cfg2.N
      = normReluRows (V c main_v42_0) (V c main_v44) (V c main_v48) (V c main_v49) (V c main_v50) := by
  exact (dat2 V c).arrAt_eq_of_cover 5 _ (fun t _ => block_written V c t) blocks_fill

end Cert.Gcn.RegionNorm

end
-- ==== Proof.RegionFinal.lean ====
/-
  The last region: ten row blocks of 5000 nodes, each entry the sum of layer 1, the second aggregation and the bias row.
-/
import proofs.«112645_j60576218742837_1_alg».proof.Proof.Gen.KernelIdeal.Frame
import proofs.«112645_j60576218742837_1_alg».proof.Proof.GcnSpec
import proofs.«112645_j60576218742837_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RegionFinal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

-- the buffer contents a region is entered from
variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The body's result at (p, q): the two blocks' entries there and the bias row's entry of column q, added. -/
theorem pay_apply (x0 x1 : FVec Ideal S5000x128 .f32) (x2 : FVec Ideal S1x128 .f32) (p : Fin 5000) (q : Fin 128) :
    k4_pay1 (F := Ideal) x0 x1 x2 (ix2 p q) = x0 (ix2 p q) + x1 (ix2 p q) + x2 (ix2 (0 : Fin 1) q) := by
  unfold k4_pay1
  rw [addf_apply, addf_apply, broadcastTo_1b_ab_apply, shapeCast_self, shapeCast_self, shapeCast_self]

/-- The block index maps over the ten grid points: the two row-block inputs move with the output, whose block is the
    point's own row block; the bias row is always its one block. -/
theorem idx_facts : ∀ t : Fin cfg4.N,
    win4_0.index t (0 : Fin 2) = win4_3.index t (0 : Fin 2) ∧ win4_0.index t (1 : Fin 2) = win4_3.index t (1 : Fin 2)
    ∧ win4_1.index t (0 : Fin 2) = win4_3.index t (0 : Fin 2) ∧ win4_1.index t (1 : Fin 2) = win4_3.index t (1 : Fin 2)
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is its row block of the sum of the two arrays and the bias row. -/
theorem flushed_eq (c : Dev nD) (t : Fin cfg4.N) :
    (dat4 (F := Ideal) V c).flushed 3 t
      = ((cfg4.win 3).blk t).view.read (Elt Ideal) (addAddRow (V c main_v51) (V c main_v64) (V c main_v65)) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S1x128) zero_offsets]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have ht : t.val < 10 := lt_of_lt_of_eq t.isLt N_4
  have hr : t.val * 5000 + p.val < 50000 := by have := p.isLt; omega
  -- a block's coordinate in its array is the block index times the block's extent plus the coordinate inside the block
  have h3 : ((cfg4.win 3).blk t).view.emb (ix2 p q) = ix2 (⟨t.val * 5000 + p.val, hr⟩ : Fin 50000) q := by
    funext a; apply Fin.ext
    match a with
    | ⟨0, _⟩ => show win4_3.index t (0 : Fin 2) * 5000 + 1 * p.val = t.val * 5000 + p.val; omega
    | ⟨1, _⟩ => show win4_3.index t (1 : Fin 2) * 128 + 1 * q.val = q.val; omega
  have h0 : ((cfg4.win 0).blk t).view.emb (ix2 p q) = ix2 (⟨t.val * 5000 + p.val, hr⟩ : Fin 50000) q := by
    funext a; apply Fin.ext
    match a with
    | ⟨0, _⟩ => show win4_0.index t (0 : Fin 2) * 5000 + 1 * p.val = t.val * 5000 + p.val; omega
    | ⟨1, _⟩ => show win4_0.index t (1 : Fin 2) * 128 + 1 * q.val = q.val; omega
  have h1 : ((cfg4.win 1).blk t).view.emb (ix2 p q) = ix2 (⟨t.val * 5000 + p.val, hr⟩ : Fin 50000) q := by
    funext a; apply Fin.ext
    match a with
    | ⟨0, _⟩ => show win4_1.index t (0 : Fin 2) * 5000 + 1 * p.val = t.val * 5000 + p.val; omega
    | ⟨1, _⟩ => show win4_1.index t (1 : Fin 2) * 128 + 1 * q.val = q.val; omega
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 128 + 1 * q.val = q.val; omega
  -- each input block's entry is its array's entry at the output's place; the bias row's is the row's own
  have b0 : iblk4 V c 0 t (ix2 p q) = V c main_v51 (ix2 (⟨t.val * 5000 + p.val, hr⟩ : Fin 50000) q) := by
    show V c main_v51 (((cfg4.win 0).blk t).view.emb (ix2 p q)) = _
    rw [h0]
  have b1 : iblk4 V c 1 t (ix2 p q) = V c main_v64 (ix2 (⟨t.val * 5000 + p.val, hr⟩ : Fin 50000) q) := by
    show V c main_v64 (((cfg4.win 1).blk t).view.emb (ix2 p q)) = _
    rw [h1]
  have b2 : iblk4 V c 2 t (ix2 (0 : Fin 1) q) = V c main_v65 (ix2 (0 : Fin 1) q) := by
    show V c main_v65 (((cfg4.win 2).blk t).view.emb (ix2 (0 : Fin 1) q)) = _
    rw [h2]
  show k4_pay1 (F := Ideal) (iblk4 V c 0 t) (iblk4 V c 1 t) (iblk4 V c 2 t) (ix2 p q)
    = addAddRow (V c main_v51) (V c main_v64) (V c main_v65) (((cfg4.win 3).blk t).view.emb (ix2 p q))
  rw [h3]
  refine (pay_apply (iblk4 V c 0 t) (iblk4 V c 1 t) (iblk4 V c 2 t) p q).trans ?_
  rw [b0, b1, b2]
  rfl

/-- An index of the array is in point t's block iff each coordinate is in the block's range on its axis. -/
theorem mem_blk (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v66).slice (win4_3.rect t)).set ↔ _
  rw [View.set_slice_whole, Rect.mem_set_unit]
  exact Iff.rfl

/-- Every index of the array is in some point's block: row r is in the block of point r / 5000. -/
theorem cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by show _ < grid4.N; rw [N_4]; omega⟩, rfl⟩
  obtain ⟨-, -, -, -, -, -, e6, e7⟩ := idx_facts t
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

theorem arr_final (c : Dev nD) :
    (dat4 (F := Ideal) V c).arrAt 3 cfg4.N = addAddRow (V c main_v51) (V c main_v64) (V c main_v65) :=
  (dat4 V c).arrAt_eq_of_cover 3 _ (fun t _ => flushed_eq V c t) cover

end Cert.Gcn.RegionFinal

end
-- ==== Proof.KernelValue.lean ====
/-
  The kernel program's result as one function of its arguments: each region's array (a projection, the biased
  aggregation with its column sums, the normalised layer, the final sum) and each stretch of host operations between
  them (the edge weights, the two aggregations, the mean and variance rows) read in order.
-/
import proofs.«112645_j60576218742837_1_alg».proof.Proof.Gen.KernelIdeal.Frame
import proofs.«112645_j60576218742837_1_alg».proof.Proof.GcnSpec
import proofs.«112645_j60576218742837_1_alg».proof.Proof.LibLayout
import proofs.«112645_j60576218742837_1_alg».proof.Proof.HostReads
import proofs.«112645_j60576218742837_1_alg».proof.Proof.RegionMatmul
import proofs.«112645_j60576218742837_1_alg».proof.Proof.RegionStats
import proofs.«112645_j60576218742837_1_alg».proof.Proof.RegionNorm
import proofs.«112645_j60576218742837_1_alg».proof.Proof.RegionFinal
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.Gcn.KernelValue

open Idealize.ShloMosaic Idealize.ShloMosaic.TcCoe Idealize.ShloMosaic.ValueIdx Idealize.SL.Sem
open Idealize.ShloMosaic.StableHlo
open Cert.KernelIdeal Cert.KernelIdeal.Gen Cert.Gcn

variable (m : (ℓ : Loc nD τ sig) → Buf (Elt Ideal) ℓ) (ρ : Dev nD → PrngReg)

/-! ## The rows the regions take, entry by entry: they are the per-feature functions of the specification -/

/-- An array plus a per-feature vector laid out as a row: the vector's entry of the column is added. -/
theorem addRow_rowCast (A : FVec Ideal SX .f32) (b : FVec Ideal SB .f32) :
    addRow A (HostReads.rowCast b) = arr2 fun p q => A (ix2 p q) + b (ix1 q) := by
  unfold addRow
  exact congrArg arr2 (funext fun p => funext fun q => by rw [HostReads.rowCast_apply])

/-- The sum of two arrays and a per-feature vector laid out as a row. -/
theorem addAddRow_rowCast (h A : FVec Ideal SX .f32) (b : FVec Ideal SB .f32) :
    addAddRow h A (HostReads.rowCast b) = arr2 fun p q => h (ix2 p q) + A (ix2 p q) + b (ix1 q) := by
  unfold addAddRow
  exact congrArg arr2 (funext fun p => funext fun q => by rw [HostReads.rowCast_apply])

/-- The row of column sums divided by the node count is, at column q, the mean of column q. -/
theorem meanRow_apply (h : FVec Ideal SX .f32) (q : Fin 128) :
    HostReads.divCount (rowOf (colSumAt h)) (ix2 (0 : Fin 1) q) = meanAt h q := by
  rw [HostReads.divCount_apply, rowOf_ix2]
  rfl

/-- The row of sums of squares divided by the node count, minus the square of the mean row, is at column q the
    variance of column q as the mean of the squares minus the square of the mean. -/
theorem varRow_apply (h : FVec Ideal SX .f32) (q : Fin 128) :
    subf (HostReads.divCount (rowOf (colSqSumAt h)))
        (mulf (HostReads.divCount (rowOf (colSumAt h))) (HostReads.divCount (rowOf (colSumAt h)))) (ix2 (0 : Fin 1) q)
      = varMomentsAt h q := by
  rw [subf_apply, mulf_apply, meanRow_apply, HostReads.divCount_apply, rowOf_ix2]
  rfl

/-- Normalisation with the mean, variance, scale and shift as rows is normalisation with the per-feature mean and
    variance of the array itself. -/
theorem normReluRows_rows (h : FVec Ideal SX .f32) (g b : FVec Ideal SB .f32) :
    normReluRows h (HostReads.divCount (rowOf (colSumAt h)))
        (subf (HostReads.divCount (rowOf (colSqSumAt h)))
          (mulf (HostReads.divCount (rowOf (colSumAt h))) (HostReads.divCount (rowOf (colSumAt h)))))
        (HostReads.rowCast g) (HostReads.rowCast b)
      = normRelu h (meanAt h) (varMomentsAt h) g b := by
  unfold normReluRows normRelu
  refine congrArg arr2 (funext fun p => funext fun q => ?_)
  rw [meanRow_apply, varRow_apply, HostReads.rowCast_apply, HostReads.rowCast_apply]

/-! ## The arguments as launched -/

/-- the node features -/
abbrev x0 (c : Dev nD) : FVec Ideal SX .f32 := m ((c : Thread nD τ).loc main_arg0)
/-- the table of edge ends -/
abbrev x1 (c : Dev nD) : IVec SEI 32 := m ((c : Thread nD τ).loc main_arg1)
/-- the first weight matrix -/
abbrev x2 (c : Dev nD) : FVec Ideal SW .f32 := m ((c : Thread nD τ).loc main_arg2)
/-- the first bias -/
abbrev x3 (c : Dev nD) : FVec Ideal SB .f32 := m ((c : Thread nD τ).loc main_arg3)
/-- the second weight matrix -/
abbrev x4 (c : Dev nD) : FVec Ideal SW .f32 := m ((c : Thread nD τ).loc main_arg4)
/-- the second bias -/
abbrev x5 (c : Dev nD) : FVec Ideal SB .f32 := m ((c : Thread nD τ).loc main_arg5)
/-- the scale -/
abbrev x6 (c : Dev nD) : FVec Ideal SB .f32 := m ((c : Thread nD τ).loc main_arg6)
/-- the shift -/
abbrev x7 (c : Dev nD) : FVec Ideal SB .f32 := m ((c : Thread nD τ).loc main_arg7)

/-! ## The intermediate arrays, each a function of the arguments -/

/-- x W1 -/
def proj1 (c : Dev nD) : FVec Ideal SX .f32 := arr2 (mmAt (x0 m c) (x2 m c))
/-- layer 1 before normalisation: the aggregation of x W1 plus the bias row -/
def pre (c : Dev nD) : FVec Ideal SX .f32 := addRow (agg (proj1 m c) (x1 m c)) (HostReads.rowCast (x3 m c))
/-- the row of column means of it -/
def meanRow (c : Dev nD) : FVec Ideal SRow .f32 := HostReads.divCount (rowOf (colSumAt (pre m c)))
/-- the row of column variances of it, as mean of squares minus square of mean -/
def varRow (c : Dev nD) : FVec Ideal SRow .f32 :=
  subf (HostReads.divCount (rowOf (colSqSumAt (pre m c)))) (mulf (meanRow m c) (meanRow m c))
/-- layer 1 -/
def layer1 (c : Dev nD) : FVec Ideal SX .f32 :=
  normReluRows (pre m c) (meanRow m c) (varRow m c) (HostReads.rowCast (x6 m c)) (HostReads.rowCast (x7 m c))
/-- (layer 1) W2 -/
def proj2 (c : Dev nD) : FVec Ideal SX .f32 := arr2 (mmAt (layer1 m c) (x4 m c))

/-- A stretch of host operations leaves a buffer that none of them writes as it was. -/
local macro "host_keeps " ops:ident : tactic =>
  `(tactic| exact StableHlo.after_of_forall_not_mem _ _ (List.forall_iff_forall_mem.mp (by
      simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Before the first region: the arguments, the edge ends and the edge weights -/

theorem W1_arg0 (c : Dev nD) : W1 (F := Ideal) m ρ c (Proc.devRef .tc main_arg0) = x0 m c :=
  calc W1 (F := Ideal) m ρ c (Proc.devRef .tc main_arg0)
    _ = W0 (F := Ideal) m ρ c (Proc.devRef .tc main_arg0) := by host_keeps hostOps0
    _ = x0 m c := rfl
theorem W1_arg2 (c : Dev nD) : W1 (F := Ideal) m ρ c (Proc.devRef .tc main_arg2) = x2 m c :=
  calc W1 (F := Ideal) m ρ c (Proc.devRef .tc main_arg2)
    _ = W0 (F := Ideal) m ρ c (Proc.devRef .tc main_arg2) := by host_keeps hostOps0
    _ = x2 m c := rfl
theorem W1_arg3 (c : Dev nD) : W1 (F := Ideal) m ρ c (Proc.devRef .tc main_arg3) = x3 m c :=
  calc W1 (F := Ideal) m ρ c (Proc.devRef .tc main_arg3)
    _ = W0 (F := Ideal) m ρ c (Proc.devRef .tc main_arg3) := by host_keeps hostOps0
    _ = x3 m c := rfl
theorem W1_arg4 (c : Dev nD) : W1 (F := Ideal) m ρ c (Proc.devRef .tc main_arg4) = x4 m c :=
  calc W1 (F := Ideal) m ρ c (Proc.devRef .tc main_arg4)
    _ = W0 (F := Ideal) m ρ c (Proc.devRef .tc main_arg4) := by host_keeps hostOps0
    _ = x4 m c := rfl
theorem W1_arg5 (c : Dev nD) : W1 (F := Ideal) m ρ c (Proc.devRef .tc main_arg5) = x5 m c :=
  calc W1 (F := Ideal) m ρ c (Proc.devRef .tc main_arg5)
    _ = W0 (F := Ideal) m ρ c (Proc.devRef .tc main_arg5) := by host_keeps hostOps0
    _ = x5 m c := rfl
theorem W1_arg6 (c : Dev nD) : W1 (F := Ideal) m ρ c (Proc.devRef .tc main_arg6) = x6 m c :=
  calc W1 (F := Ideal) m ρ c (Proc.devRef .tc main_arg6)
    _ = W0 (F := Ideal) m ρ c (Proc.devRef .tc main_arg6) := by host_keeps hostOps0
    _ = x6 m c := rfl
theorem W1_arg7 (c : Dev nD) : W1 (F := Ideal) m ρ c (Proc.devRef .tc main_arg7) = x7 m c :=
  calc W1 (F := Ideal) m ρ c (Proc.devRef .tc main_arg7)
    _ = W0 (F := Ideal) m ρ c (Proc.devRef .tc main_arg7) := by host_keeps hostOps0
    _ = x7 m c := rfl
theorem W1_v3 (c : Dev nD) : W1 (F := Ideal) m ρ c (Proc.devRef .tc main_v3) = endsRow0 (x1 m c) := HostReads.s0_ends0 (W0 m ρ c)
theorem W1_v6 (c : Dev nD) : W1 (F := Ideal) m ρ c (Proc.devRef .tc main_v6) = endsRow1 (x1 m c) := HostReads.s0_ends1 (W0 m ρ c)
theorem W1_v27 (c : Dev nD) : W1 (F := Ideal) m ρ c (Proc.devRef .tc main_v27) = edgeWeight (x1 m c) := HostReads.s0_weight (W0 m ρ c)

/-! ## After the first region: x W1 -/

theorem W2_v28 (c : Dev nD) : W2 (F := Ideal) m ρ c (Proc.devRef .tc main_v28) = proj1 m c := by
  refine (W2_arr m ρ c 2).trans ((RegionMatmul.arr_proj1 (V1 m ρ) c).trans ?_)
  rw [show V1 (F := Ideal) m ρ c main_arg0 = x0 m c from W1_arg0 m ρ c,
    show V1 (F := Ideal) m ρ c main_arg2 = x2 m c from W1_arg2 m ρ c]
  rfl
theorem W2_v3 (c : Dev nD) : W2 (F := Ideal) m ρ c (Proc.devRef .tc main_v3) = endsRow0 (x1 m c) :=
  calc W2 (F := Ideal) m ρ c (Proc.devRef .tc main_v3)
    _ = W1 (F := Ideal) m ρ c (Proc.devRef .tc main_v3) := W2_of_ne m ρ c main_v3 (by decide)
    _ = endsRow0 (x1 m c) := W1_v3 m ρ c
theorem W2_v6 (c : Dev nD) : W2 (F := Ideal) m ρ c (Proc.devRef .tc main_v6) = endsRow1 (x1 m c) :=
  calc W2 (F := Ideal) m ρ c (Proc.devRef .tc main_v6)
    _ = W1 (F := Ideal) m ρ c (Proc.devRef .tc main_v6) := W2_of_ne m ρ c main_v6 (by decide)
    _ = endsRow1 (x1 m c) := W1_v6 m ρ c
theorem W2_v27 (c : Dev nD) : W2 (F := Ideal) m ρ c (Proc.devRef .tc main_v27) = edgeWeight (x1 m c) :=
  calc W2 (F := Ideal) m ρ c (Proc.devRef .tc main_v27)
    _ = W1 (F := Ideal) m ρ c (Proc.devRef .tc main_v27) := W2_of_ne m ρ c main_v27 (by decide)
    _ = edgeWeight (x1 m c) := W1_v27 m ρ c
theorem W2_arg3 (c : Dev nD) : W2 (F := Ideal) m ρ c (Proc.devRef .tc main_arg3) = x3 m c :=
  calc W2 (F := Ideal) m ρ c (Proc.devRef .tc main_arg3)
    _ = W1 (F := Ideal) m ρ c (Proc.devRef .tc main_arg3) := W2_of_ne m ρ c main_arg3 (by decide)
    _ = x3 m c := W1_arg3 m ρ c

/-! ## Before the statistics region: the first aggregation and the bias row -/

theorem W3_v40 (c : Dev nD) : W3 (F := Ideal) m ρ c (Proc.devRef .tc main_v40) = agg (proj1 m c) (x1 m c) := by
  refine (HostReads.s1_agg (W2 m ρ c)).trans ?_
  rw [W2_v28, W2_v3, W2_v6, W2_v27]
  exact (HostReads.agg_eq_aggOf _ _).symm
theorem W3_v41 (c : Dev nD) : W3 (F := Ideal) m ρ c (Proc.devRef .tc main_v41) = HostReads.rowCast (x3 m c) := by
  refine (HostReads.s1_bias (W2 m ρ c)).trans ?_
  rw [W2_arg3]

/-! ## After the statistics region: layer 1 before normalisation, its column sums and sums of squares -/

theorem V3_v40 (c : Dev nD) : V3 (F := Ideal) m ρ c main_v40 = agg (proj1 m c) (x1 m c) := W3_v40 m ρ c
theorem V3_v41 (c : Dev nD) : V3 (F := Ideal) m ρ c main_v41 = HostReads.rowCast (x3 m c) := W3_v41 m ρ c

theorem W4_v42_0 (c : Dev nD) : W4 (F := Ideal) m ρ c (Proc.devRef .tc main_v42_0) = pre m c := by
  refine (W4_arr m ρ c 2).trans ((RegionStats.arr_biased (V3 m ρ) c).trans ?_)
  rw [V3_v40, V3_v41]
  rfl
theorem W4_v42_1 (c : Dev nD) : W4 (F := Ideal) m ρ c (Proc.devRef .tc main_v42_1) = rowOf (colSumAt (pre m c)) := by
  refine (W4_arr m ρ c 3).trans ((RegionStats.arr_colSum (V3 m ρ) c).trans ?_)
  rw [V3_v40, V3_v41]
  rfl
theorem W4_v42_2 (c : Dev nD) : W4 (F := Ideal) m ρ c (Proc.devRef .tc main_v42_2) = rowOf (colSqSumAt (pre m c)) := by
  refine (W4_arr m ρ c 4).trans ((RegionStats.arr_colSqSum (V3 m ρ) c).trans ?_)
  rw [V3_v40, V3_v41]
  rfl
theorem W4_arg6 (c : Dev nD) : W4 (F := Ideal) m ρ c (Proc.devRef .tc main_arg6) = x6 m c :=
  calc W4 (F := Ideal) m ρ c (Proc.devRef .tc main_arg6)
    _ = W3 (F := Ideal) m ρ c (Proc.devRef .tc main_arg6) := W4_of_ne m ρ c main_arg6 (by decide)
    _ = W2 (F := Ideal) m ρ c (Proc.devRef .tc main_arg6) := by host_keeps hostOps1
    _ = W1 (F := Ideal) m ρ c (Proc.devRef .tc main_arg6) := W2_of_ne m ρ c main_arg6 (by decide)
    _ = x6 m c := W1_arg6 m ρ c
theorem W4_arg7 (c : Dev nD) : W4 (F := Ideal) m ρ c (Proc.devRef .tc main_arg7) = x7 m c :=
  calc W4 (F := Ideal) m ρ c (Proc.devRef .tc main_arg7)
    _ = W3 (F := Ideal) m ρ c (Proc.devRef .tc main_arg7) := W4_of_ne m ρ c main_arg7 (by decide)
    _ = W2 (F := Ideal) m ρ c (Proc.devRef .tc main_arg7) := by host_keeps hostOps1
    _ = W1 (F := Ideal) m ρ c (Proc.devRef .tc main_arg7) := W2_of_ne m ρ c main_arg7 (by decide)
    _ = x7 m c := W1_arg7 m ρ c

/-! ## Before the normalisation region: the mean, variance, scale and shift rows -/

theorem V5_v42_0 (c : Dev nD) : V5 (F := Ideal) m ρ c main_v42_0 = pre m c :=
  calc W5 (F := Ideal) m ρ c (Proc.devRef .tc main_v42_0)
    _ = W4 (F := Ideal) m ρ c (Proc.devRef .tc main_v42_0) := by host_keeps hostOps2
    _ = pre m c := W4_v42_0 m ρ c
theorem V5_v44 (c : Dev nD) : V5 (F := Ideal) m ρ c main_v44 = meanRow m c := by
  refine (HostReads.s2_mean (W4 m ρ c)).trans ?_
  rw [W4_v42_1]
  rfl
theorem V5_v48 (c : Dev nD) : V5 (F := Ideal) m ρ c main_v48 = varRow m c := by
  refine (HostReads.s2_var (W4 m ρ c)).trans ?_
  rw [W4_v42_1, W4_v42_2]
  rfl
theorem V5_v49 (c : Dev nD) : V5 (F := Ideal) m ρ c main_v49 = HostReads.rowCast (x6 m c) := by
  refine (HostReads.s2_gamma (W4 m ρ c)).trans ?_
  rw [W4_arg6]
theorem V5_v50 (c : Dev nD) : V5 (F := Ideal) m ρ c main_v50 = HostReads.rowCast (x7 m c) := by
  refine (HostReads.s2_beta (W4 m ρ c)).trans ?_
  rw [W4_arg7]

/-! ## After the normalisation region: layer 1 -/

theorem W6_v51 (c : Dev nD) : W6 (F := Ideal) m ρ c (Proc.devRef .tc main_v51) = layer1 m c := by
  refine (W6_arr m ρ c 5).trans ((RegionNorm.arr_norm (V5 m ρ) c).trans ?_)
  rw [V5_v42_0, V5_v44, V5_v48, V5_v49, V5_v50]
  rfl
theorem W6_arg4 (c : Dev nD) : W6 (F := Ideal) m ρ c (Proc.devRef .tc main_arg4) = x4 m c :=
  calc W6 (F := Ideal) m ρ c (Proc.devRef .tc main_arg4)
    _ = W5 (F := Ideal) m ρ c (Proc.devRef .tc main_arg4) := W6_of_ne m ρ c main_arg4 (by decide)
    _ = W4 (F := Ideal) m ρ c (Proc.devRef .tc main_arg4) := by host_keeps hostOps2
    _ = W3 (F := Ideal) m ρ c (Proc.devRef .tc main_arg4) := W4_of_ne m ρ c main_arg4 (by decide)
    _ = W2 (F := Ideal) m ρ c (Proc.devRef .tc main_arg4) := by host_keeps hostOps1
    _ = W1 (F := Ideal) m ρ c (Proc.devRef .tc main_arg4) := W2_of_ne m ρ c main_arg4 (by decide)
    _ = x4 m c := W1_arg4 m ρ c

/-! ## After the second projection region: (layer 1) W2; layer 1 is read there, not written -/

theorem V6_v51 (c : Dev nD) : V6 (F := Ideal) m ρ c main_v51 = layer1 m c := W6_v51 m ρ c
theorem V6_arg4 (c : Dev nD) : V6 (F := Ideal) m ρ c main_arg4 = x4 m c := W6_arg4 m ρ c

theorem W7_v52 (c : Dev nD) : W7 (F := Ideal) m ρ c (Proc.devRef .tc main_v52) = proj2 m c := by
  refine (W7_arr m ρ c 2).trans ((RegionMatmul.arr_proj2 (V6 m ρ) c).trans ?_)
  rw [V6_v51, V6_arg4]
  rfl
theorem W7_v51 (c : Dev nD) : W7 (F := Ideal) m ρ c (Proc.devRef .tc main_v51) = layer1 m c :=
  calc W7 (F := Ideal) m ρ c (Proc.devRef .tc main_v51)
    _ = W6 (F := Ideal) m ρ c (Proc.devRef .tc main_v51) := (W7_arr m ρ c 0).trans (((dat3 (V6 m ρ) c).arrAt_in 0 rfl _).trans (A_eq3 (V6 m ρ) c 0))
    _ = layer1 m c := W6_v51 m ρ c
theorem W7_v3 (c : Dev nD) : W7 (F := Ideal) m ρ c (Proc.devRef .tc main_v3) = endsRow0 (x1 m c) :=
  calc W7 (F := Ideal) m ρ c (Proc.devRef .tc main_v3)
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := by host_keeps hostOps2
    _ = W3 (F := Ideal) m ρ c (Proc.devRef .tc main_v3) := W4_of_ne m ρ c main_v3 (by decide)
    _ = W2 (F := Ideal) m ρ c (Proc.devRef .tc main_v3) := by host_keeps hostOps1
    _ = endsRow0 (x1 m c) := W2_v3 m ρ c
theorem W7_v6 (c : Dev nD) : W7 (F := Ideal) m ρ c (Proc.devRef .tc main_v6) = endsRow1 (x1 m c) :=
  calc W7 (F := Ideal) m ρ c (Proc.devRef .tc main_v6)
    _ = W6 (F := Ideal) m ρ c (Proc.devRef .tc main_v6) := W7_of_ne m ρ c main_v6 (by decide)
    _ = W5 (F := Ideal) m ρ c (Proc.devRef .tc main_v6) := W6_of_ne m ρ c main_v6 (by decide)
    _ = W4 (F := Ideal) m ρ c (Proc.devRef .tc main_v6) := by host_keeps hostOps2
    _ = W3 (F := Ideal) m ρ c (Proc.devRef .tc main_v6) := W4_of_ne m ρ c main_v6 (by decide)
    _ = W2 (F := Ideal) m ρ c (Proc.devRef .tc main_v6) := by host_keeps hostOps1
    _ = endsRow1 (x1 m c) := W2_v6 m ρ c
theorem W7_v27 (c : Dev nD) : W7 (F := Ideal) m ρ c (Proc.devRef .tc main_v27) = edgeWeight (x1 m c) :=
  calc W7 (F := Ideal) m ρ c (Proc.devRef .tc main_v27)
    _ = W6 (F := Ideal) m ρ c (Proc.devRef .tc main_v27) := W7_of_ne m ρ c main_v27 (by decide)
    _ = W5 (F := Ideal) m ρ c (Proc.devRef .tc main_v27) := W6_of_ne m ρ c main_v27 (by decide)
    _ = W4 (F := Ideal) m ρ c (Proc.devRef .tc main_v27) := by host_keeps hostOps2
    _ = W3 (F := Ideal) m ρ c (Proc.devRef .tc main_v27) := W4_of_ne m ρ c main_v27 (by decide)
    _ = W2 (F := Ideal) m ρ c (Proc.devRef .tc main_v27) := by host_keeps hostOps1
    _ = edgeWeight (x1 m c) := W2_v27 m ρ c
theorem W7_arg5 (c : Dev nD) : W7 (F := Ideal) m ρ c (Proc.devRef .tc main_arg5) = x5 m c :=
  calc W7 (F := Ideal) m ρ c (Proc.devRef .tc main_arg5)
    _ = W6 (F := Ideal) m ρ c (Proc.devRef .tc main_arg5) := W7_of_ne m ρ c main_arg5 (by decide)
    _ = W5 (F := Ideal) m ρ c (Proc.devRef .tc main_arg5) := W6_of_ne m ρ c main_arg5 (by decide)
    _ = W4 (F := Ideal) m ρ c (Proc.devRef .tc main_arg5) := by host_keeps hostOps2
    _ = W3 (F := Ideal) m ρ c (Proc.devRef .tc main_arg5) := W4_of_ne m ρ c main_arg5 (by decide)
    _ = W2 (F := Ideal) m ρ c (Proc.devRef .tc main_arg5) := by host_keeps hostOps1
    _ = W1 (F := Ideal) m ρ c (Proc.devRef .tc main_arg5) := W2_of_ne m ρ c main_arg5 (by decide)
    _ = x5 m c := W1_arg5 m ρ c

/-! ## Before the last region: the second aggregation and bias row -/

theorem V8_v51 (c : Dev nD) : V8 (F := Ideal) m ρ c main_v51 = layer1 m c :=
  calc W8 (F := Ideal) m ρ c (Proc.devRef .tc main_v51)
    _ = W7 (F := Ideal) m ρ c (Proc.devRef .tc main_v51) := by host_keeps hostOps4
    _ = layer1 m c := W7_v51 m ρ c
theorem V8_v64 (c : Dev nD) : V8 (F := Ideal) m ρ c main_v64 = agg (proj2 m c) (x1 m c) := by
  refine (HostReads.s4_agg (W7 m ρ c)).trans ?_
  rw [W7_v52, W7_v3, W7_v6, W7_v27]
  exact (HostReads.agg_eq_aggOf _ _).symm
theorem V8_v65 (c : Dev nD) : V8 (F := Ideal) m ρ c main_v65 = HostReads.rowCast (x5 m c) := by
  refine (HostReads.s4_bias (W7 m ρ c)).trans ?_
  rw [W7_arg5]

/-! ## The named arrays are the specification's -/

/-- Layer 1 before normalisation, as the specification writes it. -/
theorem pre_eq (c : Dev nD) : pre m c = preNorm (x0 m c) (x1 m c) (x2 m c) (x3 m c) := by
  unfold pre proj1 preNorm
  exact addRow_rowCast _ _

/-- Layer 1, as the specification writes it. -/
theorem layer1_eq (c : Dev nD) :
    layer1 m c = normRelu (preNorm (x0 m c) (x1 m c) (x2 m c) (x3 m c)) (meanAt (preNorm (x0 m c) (x1 m c) (x2 m c) (x3 m c)))
      (varMomentsAt (preNorm (x0 m c) (x1 m c) (x2 m c) (x3 m c))) (x6 m c) (x7 m c) := by
  unfold layer1 varRow meanRow
  rw [pre_eq]
  exact normReluRows_rows _ _ _

/-- The result buffer at the last boundary is the moments form of the result, of the arguments as launched. -/
theorem result_eq (c : Dev nD) :
    W9 (F := Ideal) m ρ c (Proc.devRef .tc main_v66)
      = outMoments (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W9_arr m ρ c 3).trans ((RegionFinal.arr_final (V8 m ρ) c).trans ?_)
  rw [V8_v51, V8_v64, V8_v65]
  refine (addAddRow_rowCast _ _ _).trans ?_
  unfold proj2
  rw [layer1_eq]
  unfold outMoments
  rfl

end Cert.Gcn.KernelValue

end
-- ==== Proof.RefRun.lean ====
/-
  The reference program's run: its operations in order as one list, the three helper functions it calls (the
  variance, the guard inside it, the clamp at 0) written out at their call sites over the buffers of each call,
  and every buffer after the run as the fold of that list over the launch contents.
-/
import proofs.«112645_j60576218742837_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. First the edge lists: the sources and the targets of the 800000 edges, each
    followed by the 50000 self-loops (the row counter), 850000 entries. The degree of a node is the scatter-add of ones
    over the targets, its inverse square root the node's scale, and an edge's weight the product of the scales gathered
    at its two ends (an index below 0 would be wrapped by adding 50000 before each gather). The first layer: the features
    times the first weight matrix, the rows gathered at the sources, scaled by the edge weights, scatter-added at the
    targets into zeros, plus the first bias. Then the column mean (column sums over 50000), the variance written out at
    its call (column sums, mean, centred squares, their column sums over 50000 minus the correction 0, and the guard
    written out inside it: where 50000 - 0 > 0 the quotient, else the not-a-number constant), the centred rows times the
    gain, times the inverse square root of variance plus 1e-5, plus the shift, and the clamp at 0 written out at its
    call. The second layer: the same product, gather, scaling, scatter-add and bias with the second weights; the result
    is the clamped rows plus that. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v3 main_v12 main_v13 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v14 (broadcastInDim S850000 ![] bcast_S_S850000 : (⟨S_, .i32⟩ : BufTy).Contents (Elt F) → (⟨S850000, .i32⟩ : BufTy).Contents (Elt F)),
    binary main_v3 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_2 (constantI S_ 32 0#32),
    unary main_c_2 main_v19 (broadcastInDim S850000 ![] bcast_S_S850000 : (⟨S_, .i32⟩ : BufTy).Contents (Elt F) → (⟨S850000, .i32⟩ : BufTy).Contents (Elt F)),
    binary main_v6 main_v19 main_v20 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v18 main_v25 main_v26 (mulf : (⟨S850000, .f32⟩ : BufTy).Contents (Elt F) → (⟨S850000, .f32⟩ : BufTy).Contents (Elt F) → (⟨S850000, .f32⟩ : BufTy).Contents (Elt F)),
    unary main_v26 main_v27 (broadcastInDim S850000x1 ![0] bcast_S850000_S850000x1_0 : (⟨S850000, .f32⟩ : BufTy).Contents (Elt F) → (⟨S850000x1, .f32⟩ : BufTy).Contents (Elt F)),
    binary main_arg0 main_arg2 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_4 (constantI S_ 32 0#32),
    unary main_c_4 main_v29 (broadcastInDim S850000 ![] bcast_S_S850000 : (⟨S_, .i32⟩ : BufTy).Contents (Elt F) → (⟨S850000, .i32⟩ : BufTy).Contents (Elt F)),
    binary main_v3 main_v29 main_v30 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v31 (broadcastInDim S850000 ![] bcast_S_S850000 : (⟨S_, .i32⟩ : BufTy).Contents (Elt F) → (⟨S850000, .i32⟩ : BufTy).Contents (Elt F)),
    binary main_v3 main_v31 main_v32 (addi : (⟨S850000, .i32⟩ : BufTy).Contents (Elt F) → (⟨S850000, .i32⟩ : BufTy).Contents (Elt F) → (⟨S850000, .i32⟩ : BufTy).Contents (Elt F)),
    ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v33 main_v34 (broadcastInDim S850000x1 ![0] bcast_S850000_S850000x1_0 : (⟨S850000, .i32⟩ : BufTy).Contents (Elt F) → (⟨S850000x1, .i32⟩ : BufTy).Contents (Elt F)),
    binary main_v28 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v27 main_v36 (broadcastInDim S850000x128 ![0, 1] bcast_S850000x1_S850000x128_0_1 : (⟨S850000x1, .f32⟩ : BufTy).Contents (Elt F) → (⟨S850000x128, .f32⟩ : BufTy).Contents (Elt F)),
    binary main_v35 main_v36 main_v37 (mulf : (⟨S850000x128, .f32⟩ : BufTy).Contents (Elt F) → (⟨S850000x128, .f32⟩ : BufTy).Contents (Elt F) → (⟨S850000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)),
    unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    binary main_v43 main_cst_7 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    nullary main_c_9 (constantI S_ 32 0#32),
    TRef.nullary main_call0.cst (constant S_ .f32 0x00000000#32),
    TRef.binary (.of main_v43 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v43 : TRef sig ⟨S50000x128, .f32⟩) main_call0.v4 main_call0.v5 subf,
    TRef.binary main_call0.v5 main_call0.v5 main_call0.v6 mulf,
    TRef.unary (.of main_c_9 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v46 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v43 main_v49 main_v50 (subf : (⟨S50000x128, .f32⟩ : BufTy).Contents (Elt F) → (⟨S50000x128, .f32⟩ : BufTy).Contents (Elt F) → (⟨S50000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v52 main_v50 main_v53 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v54 (broadcastInDim S128 ![] bcast_S_S128 : (⟨S_, .f32⟩ : BufTy).Contents (Elt F) → (⟨S128, .f32⟩ : BufTy).Contents (Elt F)),
    binary main_v47 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (mulf : (⟨S50000x128, .f32⟩ : BufTy).Contents (Elt F) → (⟨S50000x128, .f32⟩ : BufTy).Contents (Elt F) → (⟨S50000x128, .f32⟩ : BufTy).Contents (Elt F)),
    unary main_arg7 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v62 : TRef sig ⟨S50000x128, .f32⟩) main_call1.v0 main_call1.v1 maximumf,
    binary main_v63 main_arg4 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_11 (constantI S_ 32 0#32),
    unary main_c_11 main_v65 (broadcastInDim S850000 ![] bcast_S_S850000 : (⟨S_, .i32⟩ : BufTy).Contents (Elt F) → (⟨S850000, .i32⟩ : BufTy).Contents (Elt F)),
    binary main_v3 main_v65 main_v66 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v64 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v27 main_v72 (broadcastInDim S850000x128 ![0, 1] bcast_S850000x1_S850000x128_0_1 : (⟨S850000x1, .f32⟩ : BufTy).Contents (Elt F) → (⟨S850000x128, .f32⟩ : BufTy).Contents (Elt F)),
    binary main_v71 main_v72 main_v73 (mulf : (⟨S850000x128, .f32⟩ : BufTy).Contents (Elt F) → (⟨S850000x128, .f32⟩ : BufTy).Contents (Elt F) → (⟨S850000x128, .f32⟩ : BufTy).Contents (Elt F)),
    nullary main_cst_13 (constant S_ .f32 0x00000000#32),
    unary main_cst_13 main_v74 (broadcastInDim S50000x128 ![] bcast_S_S50000x128 : (⟨S_, .f32⟩ : BufTy).Contents (Elt F) → (⟨S50000x128, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    binary main_v63 main_v79 main_v80 (addf : (⟨S50000x128, .f32⟩ : BufTy).Contents (Elt F) → (⟨S50000x128, .f32⟩ : BufTy).Contents (Elt F) → (⟨S50000x128, .f32⟩ : BufTy).Contents (Elt F)) ]

-- a chain of 120 steps
set_option maxRecDepth 8192 in
set_option maxHeartbeats 4000000 in
/-- The program is that straight line: its two windows in order, each function's body put at its call and each
    call's record read at its fields; once sequencing is re-associated both sides are the same chain of steps. -/
theorem main_eq (c : Dev nD) : main (F := F) c = seq ops := by
  simp only [main, main_part0, main_part1, fn_var.body, fn_where.body, fn_relu.body, seq, bind_assoc, pure_bind]

/-- The program scopes no buffer. -/
theorem scopedRefs_eq : (Finset.univ.filter fun b : Ref sig .tc => b.isScoped) = ∅ := by decide
/-- The program scopes no counter. -/
theorem scopedSems_eq : (Finset.univ.filter fun sm : SemLoc sig => sm.isScoped .tc) = ∅ := by decide

/-- Every operation reads and writes buffers of the device only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub .., nullary_bufs_sub .., unary_bufs_sub .., binary_bufs_sub .., nullary_bufs_sub ..,
    -- the variance at its call
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    -- the guard inside it
    unary_bufs_sub .., unary_bufs_sub .., ternary_bufs_sub ..,
    -- the normalisation
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..,
    -- the clamp at 0
    nullary_bufs_sub .., unary_bufs_sub .., binary_bufs_sub ..,
    -- the second layer
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Gcn.RefRun

end
-- ==== Proof.Variance.lean ====
/-
  For a column of 50000 real numbers the mean of the squares minus the square of the mean is the mean of the squared
  distances to the mean.
-/
import proofs.«112645_j60576218742837_1_alg».proof.Proof.GcnSpec

noncomputable section

namespace Cert.Gcn.Variance

open Idealize.ShloMosaic Idealize.ShloMosaic.ValueIdx Cert.Gcn

/-- The pattern both programs write for the node count denotes the real number 50000:
    (2^23 + 4411392) * 2^(142 - 127 - 23) = 12800000 / 256. -/
theorem nodeCount_eq : nodeCount = ((50000 : ℝ) : EReal) := by
  unfold nodeCount
  simp [Ideal.ofBits, Ideal.ieee, -EReal.coe_mul]; norm_num

/-- A finite sum of real numbers, read in the extended reals, is the sum of the readings. -/
private theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The identity over the reals, division by 50000 written as the product with 1/50000. With S the sum and
    μ = S/50000: ∑ (r - μ)² = ∑ r² - 2 μ S + 50000 μ², since the sum has 50000 terms; and 50000 μ = S. -/
private theorem real_var (r : Fin 50000 → ℝ) :
    (∑ p, r p * r p) * (1 / 50000) - ((∑ p, r p) * (1 / 50000)) * ((∑ p, r p) * (1 / 50000))
      = (∑ p, (r p - (∑ p, r p) * (1 / 50000)) * (r p - (∑ p, r p) * (1 / 50000))) * (1 / 50000) := by
  generalize hS : (∑ p, r p) = S
  generalize hμ : S * (1 / 50000) = μ
  have h1 : (∑ p, (r p - μ) * (r p - μ)) = (∑ p, r p * r p) - 2 * μ * S + 50000 * (μ * μ) := by
    have e : ∀ p, (r p - μ) * (r p - μ) = r p * r p - 2 * μ * r p + μ * μ := fun p => by ring
    simp only [e]
    rw [Finset.sum_add_distrib, Finset.sum_sub_distrib, ← Finset.mul_sum, hS, Finset.sum_const, Finset.card_univ,
      Fintype.card_fin, nsmul_eq_mul]
    norm_num
  rw [h1, ← hμ]
  ring

theorem var_eq (h : FVec Ideal SX .f32) (hh : ∀ i, IsReal (h i)) (q : Fin 128) : varMomentsAt h q = varCenteredAt h q := by
  choose r hr using fun p : Fin 50000 => hh (ix2 p q)
  have h50 : (50000 : ℝ) ≠ 0 := by norm_num
  unfold varMomentsAt varCenteredAt meanAt colSumAt colSqSumAt
  rw [nodeCount_eq]
  simp only [hr, Ideal.div_coe h50, ← EReal.coe_mul, coe_sum, ← EReal.coe_sub]
  exact congrArg _ (real_var r)

end Cert.Gcn.Variance

end
-- ==== Proof.RefTerm.lean ====
/-
  The reference program's result written as one function of its eight arguments, stage by stage in the program's own
  operations, and that function read entry by entry: it is the centred-variance form of the result.
-/
import proofs.«112645_j60576218742837_1_alg».proof.Proof.Gen.ReferenceIdeal
import proofs.«112645_j60576218742837_1_alg».proof.Proof.GcnSpec
import proofs.«112645_j60576218742837_1_alg».proof.Proof.LibLayout
import proofs.«112645_j60576218742837_1_alg».proof.Proof.Variance
import Idealize.ShloMosaic.Lib.ValueIdx
import Idealize.ShloMosaic.PureOps.Ideal.Laws

noncomputable section

namespace Cert.Gcn.RefTerm

open Cert.ReferenceIdeal Cert.ReferenceIdeal.Gen Idealize.ShloMosaic Idealize.ShloMosaic.ValueIdx Cert.Gcn

/-! ## The stages, in the program's operations -/

/-- A vector of 128 features as an array of 50000 equal rows (through one row [1, 128]). -/
def rows (b : FVec Ideal S128 .f32) : FVec Ideal S50000x128 .f32 :=
  broadcastInDim S50000x128 ![0, 1] bcast_S1x128_S50000x128_0_1 (broadcastInDim S1x128 ![1] bcast_S128_S1x128_1 b)

/-- One graph convolution: the features times the matrix, aggregated over the edges, the bias added to every row. -/
def conv (h : FVec Ideal S50000x128 .f32) (W : FVec Ideal S128x128 .f32) (ei : IVec S2x800000 32) (b : FVec Ideal S128 .f32) :
    FVec Ideal S50000x128 .f32 :=
  addf (agg (Host.dotGeneral (F := Ideal) dot_S50000x128_S128x128_S50000x128_1_0_0_1_n_n none h W) ei) (rows b)

/-- The sum of every column, from zero. -/
def colSum (h : FVec Ideal S50000x128 .f32) : FVec Ideal S128 .f32 :=
  Host.reduceAdd (F := Ideal) h (constant (F := Ideal) S_ .f32 0x00000000#32) reducesTo_S50000x128_S128_d0 h_S_

/-- The mean of every column: its sum divided by the node count. -/
def colMean (h : FVec Ideal S50000x128 .f32) : FVec Ideal S128 .f32 :=
  Host.divf (colSum h) (broadcastInDim S128 ![] bcast_S_S128 (constant (F := Ideal) S_ .f32 0x47435000#32))

/-- What the sum of squared distances is divided by: the node count less the integer 0 read as a float. -/
def varDenom : FVec Ideal S_ .f32 :=
  subf (constant (F := Ideal) S_ .f32 0x47435000#32) (sitofp .f32 (constantI S_ 32 0#32))

/-- Every entry's distance to its column's mean, the mean taken as one row [1, 128] and spread over the rows. -/
def centred (h : FVec Ideal S50000x128 .f32) : FVec Ideal S50000x128 .f32 :=
  subf h (broadcastInDim S50000x128 ![0, 1] bcast_S1x128_S50000x128_0_1
    (Host.divf (broadcastInDim S1x128 ![1] bcast_S128_S1x128_1 (colSum h))
      (broadcastInDim S1x128 ![] bcast_S_S1x128 (constant (F := Ideal) S_ .f32 0x47435000#32))))

/-- The variance of every column: the mean of the squared distances where the divisor is positive, else not a number. -/
def colVar (h : FVec Ideal S50000x128 .f32) : FVec Ideal S128 .f32 :=
  select (broadcastInDim S128 ![] bcast_S_S128 (cmpf .ogt varDenom (constant (F := Ideal) S_ .f32 0x00000000#32)))
    (Host.divf (colSum (mulf (centred h) (centred h))) (broadcastInDim S128 ![] bcast_S_S128 varDenom))
    (broadcastInDim S128 ![] bcast_S_S128 (constant (F := Ideal) S_ .f32 0x7FC00000#32))

/-- The normalised layer: gamma * (h - mean) * rsqrt (var + eps) + beta, clamped below at 0. -/
def normLayer (h : FVec Ideal S50000x128 .f32) (gamma beta : FVec Ideal S128 .f32) : FVec Ideal S50000x128 .f32 :=
  maximumf
    (addf
      (mulf (mulf (rows gamma) (subf h (rows (colMean h))))
        (rows (Host.rsqrt (addf (colVar h) (broadcastInDim S128 ![] bcast_S_S128 (constant (F := Ideal) S_ .f32 0x3727C5AC#32))))))
      (rows beta))
    (broadcastInDim S50000x128 ![] bcast_S_S50000x128 (constant (F := Ideal) S_ .f32 0x00000000#32))

/-- The whole program: the normalised first layer plus the second layer of it. -/
def refTerm (x : FVec Ideal S50000x128 .f32) (ei : IVec S2x800000 32) (W1 : FVec Ideal S128x128 .f32) (b1 : FVec Ideal S128 .f32)
    (W2 : FVec Ideal S128x128 .f32) (b2 gamma beta : FVec Ideal S128 .f32) : FVec Ideal S50000x128 .f32 :=
  addf (normLayer (conv x W1 ei b1) gamma beta) (conv (normLayer (conv x W1 ei b1) gamma beta) W2 ei b2)

/-! ## The stages read entry by entry -/

private theorem hostDivf_apply {s : Shape} (a b : FVec Ideal s .f32) (i : s.Idx) : Host.divf a b i = Ideal.div (a i) (b i) := rfl
private theorem hostRsqrt_apply {s : Shape} (a : FVec Ideal s .f32) (i : s.Idx) : Host.rsqrt a i = Ideal.rsqrt (a i) := rfl

/-- Every row of the spread array is the vector. -/
theorem rows_apply (b : FVec Ideal S128 .f32) (p : Fin 50000) (q : Fin 128) : rows b (ix2 p q) = b (ix1 q) :=
  (LibLayout.broadcastInDim_1b_ab_apply _ _ p q).trans (LibLayout.broadcastInDim_b_1b_apply _ _ 0 q)

/-- The host's product of a [50000, 128] array with a [128, 128] matrix is the array of the sums over the shared axis. -/
theorem dot_eq (h : FVec Ideal S50000x128 .f32) (W : FVec Ideal S128x128 .f32) :
    Host.dotGeneral (F := Ideal) dot_S50000x128_S128x128_S50000x128_1_0_0_1_n_n none h W = arr2 (mmAt h W) := by
  funext i
  obtain ⟨p, q, rfl⟩ : ∃ (p : Fin 50000) (q : Fin 128), i = ix2 p q := ⟨i 0, i 1, eq_ix2 i⟩
  exact LibLayout.dotGeneral_plain_apply none .single h W p q

/-- A convolution at (p, q): the aggregate there plus the bias at q. -/
theorem conv_eq (h : FVec Ideal S50000x128 .f32) (W : FVec Ideal S128x128 .f32) (ei : IVec S2x800000 32) (b : FVec Ideal S128 .f32) :
    conv h W ei b = arr2 fun p q => agg (arr2 (mmAt h W)) ei (ix2 p q) + b (ix1 q) := by
  funext i
  obtain ⟨p, q, rfl⟩ : ∃ (p : Fin 50000) (q : Fin 128), i = ix2 p q := ⟨i 0, i 1, eq_ix2 i⟩
  unfold conv
  rw [addf_apply, rows_apply, dot_eq, arr2_ix2]

theorem reduces_col : S50000x128.Reduces [0] S128 := by decide

/-- Feature q with the node k put back on the summed axis is the entry (k, q). -/
theorem lift_col (q : Fin 128) (k : Fin 50000) : reduces_col.lift (ix1 q) k = ix2 k q := by
  funext c
  match c with
  | ⟨0, _⟩ => exact Fin.ext rfl
  | ⟨1, _⟩ => exact Fin.ext rfl

/-- The column sum at q is the sum over the nodes of the entries of column q. -/
theorem colSum_apply (h : FVec Ideal S50000x128 .f32) (q : Fin 128) : colSum h (ix1 q) = ∑ p : Fin 50000, h (ix2 p q) := by
  show Ideal.hostReduceAdd reducesTo_S50000x128_S128_d0 h (Ideal.ofBits .f32 0x00000000#32) (ix1 q) = _
  rw [Ideal.hostReduceAdd_single reducesTo_S50000x128_S128_d0 reduces_col, Ideal.ofBits_zero_f32, zero_add]
  exact Finset.sum_congr rfl fun k _ => congrArg h (lift_col q k)

theorem colMean_apply (h : FVec Ideal S50000x128 .f32) (q : Fin 128) : colMean h (ix1 q) = meanAt h q := by
  unfold colMean meanAt colSumAt nodeCount
  rw [hostDivf_apply, colSum_apply, LibLayout.broadcastInDim_scalar_apply, constant_apply]

theorem centred_apply (h : FVec Ideal S50000x128 .f32) (p : Fin 50000) (q : Fin 128) :
    centred h (ix2 p q) = h (ix2 p q) - meanAt h q := by
  unfold centred meanAt colSumAt nodeCount
  rw [subf_apply, LibLayout.broadcastInDim_1b_ab_apply, hostDivf_apply, LibLayout.broadcastInDim_b_1b_apply, colSum_apply,
    LibLayout.broadcastInDim_scalar_apply, constant_apply]

/-- The divisor is the node count: the integer 0 reads as the real 0. -/
theorem varDenom_eq : varDenom ix0 = nodeCount := by
  show Ideal.ofBits .f32 0x47435000#32 - (((0#32 : BitVec 32).toInt : ℝ) : EReal) = nodeCount
  have e : (0#32 : BitVec 32).toInt = 0 := by decide
  rw [e, Int.cast_zero, EReal.coe_zero, sub_zero]
  rfl

/-- The node count, the real 50000, is above zero. -/
theorem denom_pos : FloatOps.cmpf (F := Ideal) (φ := .f32) .ogt nodeCount (Ideal.ofBits .f32 0x00000000#32) = 1#1 := by
  show Ideal.cmp .ogt nodeCount (Ideal.ofBits .f32 0x00000000#32) = 1#1
  rw [Ideal.ofBits_zero_f32, Variance.nodeCount_eq]
  have hp : (0 : EReal) < ((50000 : ℝ) : EReal) := EReal.coe_pos.mpr (by norm_num)
  simp [Ideal.cmp, hp]

theorem colVar_apply (h : FVec Ideal S50000x128 .f32) (q : Fin 128) : colVar h (ix1 q) = varCenteredAt h q := by
  unfold colVar varCenteredAt
  rw [select_apply, LibLayout.broadcastInDim_scalar_apply, cmpf_apply, varDenom_eq, constant_apply, denom_pos, select_one,
    hostDivf_apply, colSum_apply, LibLayout.broadcastInDim_scalar_apply, varDenom_eq]
  exact congrArg (fun s => Ideal.div s nodeCount) (Finset.sum_congr rfl fun p _ => by rw [mulf_apply, centred_apply])

theorem normLayer_eq (h : FVec Ideal S50000x128 .f32) (gamma beta : FVec Ideal S128 .f32) :
    normLayer h gamma beta = normRelu h (meanAt h) (varCenteredAt h) gamma beta := by
  funext i
  obtain ⟨p, q, rfl⟩ : ∃ (p : Fin 50000) (q : Fin 128), i = ix2 p q := ⟨i 0, i 1, eq_ix2 i⟩
  unfold normLayer normRelu epsBN
  rw [arr2_ix2, maximumf_apply, addf_apply, mulf_apply, mulf_apply, subf_apply, rows_apply, rows_apply, rows_apply, rows_apply,
    colMean_apply, hostRsqrt_apply, addf_apply, colVar_apply, LibLayout.broadcastInDim_scalar_apply,
    LibLayout.broadcastInDim_scalar_apply, constant_apply, constant_apply, Ideal.ofBits_zero_f32]

theorem refTerm_eq (x : FVec Ideal S50000x128 .f32) (ei : IVec S2x800000 32) (W1 : FVec Ideal S128x128 .f32) (b1 : FVec Ideal S128 .f32)
    (W2 : FVec Ideal S128x128 .f32) (b2 gamma beta : FVec Ideal S128 .f32) :
    refTerm x ei W1 b1 W2 b2 gamma beta = outCentered x ei W1 b1 W2 b2 gamma beta := by
  have e1 : conv x W1 ei b1 = preNorm x ei W1 b1 := conv_eq x W1 ei b1
  unfold refTerm outCentered
  rw [e1, normLayer_eq]
  funext i
  obtain ⟨p, q, rfl⟩ : ∃ (p : Fin 50000) (q : Fin 128), i = ix2 p q := ⟨i 0, i 1, eq_ix2 i⟩
  rw [addf_apply, conv_eq, arr2_ix2, arr2_ix2]

end Cert.Gcn.RefTerm

end
-- ==== Proof.RefValue.lean ====
/-
  The reference program's result as one function of its arguments: the fold of its operations read at the result
  buffer is the centred-variance form of the result. The operations are read in five consecutive pieces, cut where a
  value is used more than once later (the edge ends and weights; the first layer before normalisation; its column
  means and variances; the normalised layer; the second layer and the sum): each piece is read at the buffers a later
  piece uses, from any contents it may start from, and the pieces are then chained.
-/
import proofs.«112645_j60576218742837_1_alg».proof.Proof.Gen.ReferenceIdeal
import proofs.«112645_j60576218742837_1_alg».proof.Proof.RefRun
import proofs.«112645_j60576218742837_1_alg».proof.Proof.RefTerm
import proofs.«112645_j60576218742837_1_alg».proof.Proof.GcnSpec
import proofs.«112645_j60576218742837_1_alg».proof.Proof.LibLayout
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RefValue

open Cert.ReferenceIdeal Cert.ReferenceIdeal.Gen Idealize.ShloMosaic Idealize.ShloMosaic.TcCoe Idealize.SL.Sem Idealize.ShloMosaic.StableHlo
open Idealize.ShloMosaic.ValueIdx Cert.Gcn Cert.Gcn.RefTerm

/-! ## The five pieces -/

section Pieces
variable {F : FTy → Type} [FloatOps F]

/-- The edge ends with the self edges, the degrees, and the edge weights. -/
abbrev seg0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v3 main_v12 main_v13 (cmpi .slt : (⟨S850000, .i32⟩ : BufTy).Contents (Elt F) → (⟨S850000, .i32⟩ : BufTy).Contents (Elt F) → (⟨S850000, .i1⟩ : BufTy).Contents (Elt F)),
    nullary main_c_1 (constantI S_ 32 50000#32),
    unary main_c_1 main_v14 (broadcastInDim S850000 ![] bcast_S_S850000 : (⟨S_, .i32⟩ : BufTy).Contents (Elt F) → (⟨S850000, .i32⟩ : BufTy).Contents (Elt F)),
    binary main_v3 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_2 (constantI S_ 32 0#32),
    unary main_c_2 main_v19 (broadcastInDim S850000 ![] bcast_S_S850000 : (⟨S_, .i32⟩ : BufTy).Contents (Elt F) → (⟨S850000, .i32⟩ : BufTy).Contents (Elt F)),
    binary main_v6 main_v19 main_v20 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v18 main_v25 main_v26 (mulf : (⟨S850000, .f32⟩ : BufTy).Contents (Elt F) → (⟨S850000, .f32⟩ : BufTy).Contents (Elt F) → (⟨S850000, .f32⟩ : BufTy).Contents (Elt F)),
    unary main_v26 main_v27 (broadcastInDim S850000x1 ![0] bcast_S850000_S850000x1_0 : (⟨S850000, .f32⟩ : BufTy).Contents (Elt F) → (⟨S850000x1, .f32⟩ : BufTy).Contents (Elt F)) ]

/-- The first layer before normalisation: project, aggregate over the edges, add the bias. -/
abbrev seg1 : List (HloOp τ sig (Elt F)) :=
  [ binary main_arg0 main_arg2 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_4 (constantI S_ 32 0#32),
    unary main_c_4 main_v29 (broadcastInDim S850000 ![] bcast_S_S850000 : (⟨S_, .i32⟩ : BufTy).Contents (Elt F) → (⟨S850000, .i32⟩ : BufTy).Contents (Elt F)),
    binary main_v3 main_v29 main_v30 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v31 (broadcastInDim S850000 ![] bcast_S_S850000 : (⟨S_, .i32⟩ : BufTy).Contents (Elt F) → (⟨S850000, .i32⟩ : BufTy).Contents (Elt F)),
    binary main_v3 main_v31 main_v32 (addi : (⟨S850000, .i32⟩ : BufTy).Contents (Elt F) → (⟨S850000, .i32⟩ : BufTy).Contents (Elt F) → (⟨S850000, .i32⟩ : BufTy).Contents (Elt F)),
    ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v33 main_v34 (broadcastInDim S850000x1 ![0] bcast_S850000_S850000x1_0 : (⟨S850000, .i32⟩ : BufTy).Contents (Elt F) → (⟨S850000x1, .i32⟩ : BufTy).Contents (Elt F)),
    binary main_v28 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v27 main_v36 (broadcastInDim S850000x128 ![0, 1] bcast_S850000x1_S850000x128_0_1 : (⟨S850000x1, .f32⟩ : BufTy).Contents (Elt F) → (⟨S850000x128, .f32⟩ : BufTy).Contents (Elt F)),
    binary main_v35 main_v36 main_v37 (mulf : (⟨S850000x128, .f32⟩ : BufTy).Contents (Elt F) → (⟨S850000x128, .f32⟩ : BufTy).Contents (Elt F) → (⟨S850000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)),
    unary main_v6 main_v39 (broadcastInDim S850000x1 ![0] bcast_S850000_S850000x1_0 : (⟨S850000, .i32⟩ : BufTy).Contents (Elt F) → (⟨S850000x1, .i32⟩ : BufTy).Contents (Elt F)),
    ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The column means, and the column variances as the mean of the squared distances to the mean. -/
abbrev seg2 : List (HloOp τ sig (Elt F)) :=
  [ nullary main_cst_7 (constant S_ .f32 0x00000000#32),
    binary main_v43 main_cst_7 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_8 (constant S_ .f32 0x47435000#32),
    unary main_cst_8 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    nullary main_c_9 (constantI S_ 32 0#32),
    TRef.nullary main_call0.cst (constant S_ .f32 0x00000000#32),
    TRef.binary (.of main_v43 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v43 : TRef sig ⟨S50000x128, .f32⟩) main_call0.v4 main_call0.v5 subf,
    TRef.binary main_call0.v5 main_call0.v5 main_call0.v6 mulf,
    TRef.unary (.of main_c_9 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The normalised layer: centre, scale, shift, clamp below at 0. -/
abbrev seg3 : List (HloOp τ sig (Elt F)) :=
  [ unary main_v46 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v43 main_v49 main_v50 (subf : (⟨S50000x128, .f32⟩ : BufTy).Contents (Elt F) → (⟨S50000x128, .f32⟩ : BufTy).Contents (Elt F) → (⟨S50000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v52 main_v50 main_v53 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v54 (broadcastInDim S128 ![] bcast_S_S128 : (⟨S_, .f32⟩ : BufTy).Contents (Elt F) → (⟨S128, .f32⟩ : BufTy).Contents (Elt F)),
    binary main_v47 main_v54 main_v55 (addf : (⟨S128, .f32⟩ : BufTy).Contents (Elt F) → (⟨S128, .f32⟩ : BufTy).Contents (Elt F) → (⟨S128, .f32⟩ : BufTy).Contents (Elt F)),
    unary main_v55 main_v56 (Host.rsqrt : (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (mulf : (⟨S50000x128, .f32⟩ : BufTy).Contents (Elt F) → (⟨S50000x128, .f32⟩ : BufTy).Contents (Elt F) → (⟨S50000x128, .f32⟩ : BufTy).Contents (Elt F)),
    unary main_arg7 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v62 : TRef sig ⟨S50000x128, .f32⟩) main_call1.v0 main_call1.v1 maximumf ]

/-- The second layer of the normalised one, and the sum of the two. -/
abbrev seg4 : List (HloOp τ sig (Elt F)) :=
  [ binary main_v63 main_arg4 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_11 (constantI S_ 32 0#32),
    unary main_c_11 main_v65 (broadcastInDim S850000 ![] bcast_S_S850000 : (⟨S_, .i32⟩ : BufTy).Contents (Elt F) → (⟨S850000, .i32⟩ : BufTy).Contents (Elt F)),
    binary main_v3 main_v65 main_v66 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v64 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v27 main_v72 (broadcastInDim S850000x128 ![0, 1] bcast_S850000x1_S850000x128_0_1 : (⟨S850000x1, .f32⟩ : BufTy).Contents (Elt F) → (⟨S850000x128, .f32⟩ : BufTy).Contents (Elt F)),
    binary main_v71 main_v72 main_v73 (mulf : (⟨S850000x128, .f32⟩ : BufTy).Contents (Elt F) → (⟨S850000x128, .f32⟩ : BufTy).Contents (Elt F) → (⟨S850000x128, .f32⟩ : BufTy).Contents (Elt F)),
    nullary main_cst_13 (constant S_ .f32 0x00000000#32),
    unary main_cst_13 main_v74 (broadcastInDim S50000x128 ![] bcast_S_S50000x128 : (⟨S_, .f32⟩ : BufTy).Contents (Elt F) → (⟨S50000x128, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    binary main_v63 main_v79 main_v80 (addf : (⟨S50000x128, .f32⟩ : BufTy).Contents (Elt F) → (⟨S50000x128, .f32⟩ : BufTy).Contents (Elt F) → (⟨S50000x128, .f32⟩ : BufTy).Contents (Elt F)) ]

/-- The program's operations are the five pieces in a row. -/
theorem ops_split : (Cert.Gcn.RefRun.ops : List (HloOp τ sig (Elt F))) = seg0 ++ seg1 ++ seg2 ++ seg3 ++ seg4 := rfl

end Pieces

/-- The fold over two lists in a row is the fold over the second from the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-! ## What each piece writes, and so what it leaves alone -/

abbrev seg0_W : List (Ref sig .tc) :=
  [main_v0, main_v1, main_v2, main_v3, main_v4, main_v5, main_v6, main_cst, main_v7, main_cst_0, main_v8,
   main_v9, main_v10, main_v11, main_c, main_v12, main_v13, main_c_1, main_v14, main_v15, main_v16,
   main_v17, main_v18, main_c_2, main_v19, main_v20, main_c_3, main_v21, main_v22, main_v23, main_v24,
   main_v25, main_v26, main_v27]
abbrev seg1_W : List (Ref sig .tc) :=
  [main_v28, main_c_4, main_v29, main_v30, main_c_5, main_v31, main_v32, main_v33, main_v34, main_v35,
   main_v36, main_v37, main_cst_6, main_v38, main_v39, main_v40, main_v41, main_v42, main_v43]
abbrev seg2_W : List (Ref sig .tc) :=
  [main_cst_7, main_v44, main_cst_8, main_v45, main_v46, main_c_9, main_call0_cst, main_call0_v0,
   main_call0_v1, main_call0_cst_0, main_call0_v2, main_call0_v3, main_call0_v4, main_call0_v5,
   main_call0_v6, main_call0_v7, main_call0_cst_1, main_call0_v8, main_call0_cst_2, main_call0_v9,
   main_call0_v10, main_call0_v11, main_call0_cst_3, main_call0_v12, main_call0_cst_4,
   main_call0_call0_v0, main_call0_call0_v1, main_v47]
abbrev seg3_W : List (Ref sig .tc) :=
  [main_v48, main_v49, main_v50, main_v51, main_v52, main_v53, main_cst_10, main_v54, main_v55, main_v56,
   main_v57, main_v58, main_v59, main_v60, main_v61, main_v62, main_call1_cst, main_call1_v0, main_v63]
abbrev seg4_W : List (Ref sig .tc) :=
  [main_v64, main_c_11, main_v65, main_v66, main_c_12, main_v67, main_v68, main_v69, main_v70, main_v71,
   main_v72, main_v73, main_cst_13, main_v74, main_v75, main_v76, main_v77, main_v78, main_v79, main_v80]

theorem seg0_writes : (seg0 : List (HloOp τ sig (Elt Ideal))).Forall fun op =>
    op.writes ⊆ (seg0_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
theorem seg0_frame (W : Valuation τ sig (Elt Ideal)) (r : Ref sig .tc) (h : r ∉ seg0_W) :
    after (seg0 (F := Ideal)) W (Proc.devRef .tc r) = W (Proc.devRef .tc r) :=
  after_of_writes_sub seg0 W seg0_writes h

theorem seg1_writes : (seg1 : List (HloOp τ sig (Elt Ideal))).Forall fun op =>
    op.writes ⊆ (seg1_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
theorem seg1_frame (W : Valuation τ sig (Elt Ideal)) (r : Ref sig .tc) (h : r ∉ seg1_W) :
    after (seg1 (F := Ideal)) W (Proc.devRef .tc r) = W (Proc.devRef .tc r) :=
  after_of_writes_sub seg1 W seg1_writes h

theorem seg2_writes : (seg2 : List (HloOp τ sig (Elt Ideal))).Forall fun op =>
    op.writes ⊆ (seg2_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
theorem seg2_frame (W : Valuation τ sig (Elt Ideal)) (r : Ref sig .tc) (h : r ∉ seg2_W) :
    after (seg2 (F := Ideal)) W (Proc.devRef .tc r) = W (Proc.devRef .tc r) :=
  after_of_writes_sub seg2 W seg2_writes h

theorem seg3_writes : (seg3 : List (HloOp τ sig (Elt Ideal))).Forall fun op =>
    op.writes ⊆ (seg3_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
theorem seg3_frame (W : Valuation τ sig (Elt Ideal)) (r : Ref sig .tc) (h : r ∉ seg3_W) :
    after (seg3 (F := Ideal)) W (Proc.devRef .tc r) = W (Proc.devRef .tc r) :=
  after_of_writes_sub seg3 W seg3_writes h

theorem seg4_writes : (seg4 : List (HloOp τ sig (Elt Ideal))).Forall fun op =>
    op.writes ⊆ (seg4_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)
theorem seg4_frame (W : Valuation τ sig (Elt Ideal)) (r : Ref sig .tc) (h : r ∉ seg4_W) :
    after (seg4 (F := Ideal)) W (Proc.devRef .tc r) = W (Proc.devRef .tc r) :=
  after_of_writes_sub seg4 W seg4_writes h

/-! ## The stages over arrays of edge ends and weights, and of column means and variances -/

/-- The aggregation over the edges given the edge ends and weights as arrays; the specification's is this one at the ends
    and weights of the edge table. -/
def aggOf (hw : FVec Ideal SX .f32) (src dst : IVec SE 32) (ew : FVec Ideal SEc .f32) : FVec Ideal SX .f32 :=
  Host.scatterAdd scatRow (broadcastInDim SX ![] bcast_S0_SX (constant (F := Ideal) S0 .f32 0x00000000#32))
    (plainCol dst)
    (mulf (Host.gather gathRow hw (wrapCol src)) (broadcastInDim SEX ![0, 1] bcast_SEc_SEX ew))

theorem agg_eq_aggOf (hw : FVec Ideal SX .f32) (ei : IVec SEI 32) :
    agg hw ei = aggOf hw (endsRow0 ei) (endsRow1 ei) (edgeWeight ei) := rfl

/-- One convolution over given edge ends and weights. -/
def convOf (h : FVec Ideal S50000x128 .f32) (W : FVec Ideal S128x128 .f32) (src dst : IVec SE 32) (ew : FVec Ideal SEc .f32)
    (b : FVec Ideal S128 .f32) : FVec Ideal S50000x128 .f32 :=
  addf (aggOf (Host.dotGeneral (F := Ideal) dot_S50000x128_S128x128_S50000x128_1_0_0_1_n_n none h W) src dst ew) (rows b)

theorem conv_eq_convOf (h : FVec Ideal S50000x128 .f32) (W : FVec Ideal S128x128 .f32) (ei : IVec S2x800000 32)
    (b : FVec Ideal S128 .f32) : conv h W ei b = convOf h W (endsRow0 ei) (endsRow1 ei) (edgeWeight ei) b := rfl

/-- The normalised layer over given column means and variances. -/
def normLayerOf (h : FVec Ideal S50000x128 .f32) (mean var gamma beta : FVec Ideal S128 .f32) : FVec Ideal S50000x128 .f32 :=
  maximumf
    (addf
      (mulf (mulf (rows gamma) (subf h (rows mean)))
        (rows (Host.rsqrt (addf var (broadcastInDim S128 ![] bcast_S_S128 (constant (F := Ideal) S_ .f32 0x3727C5AC#32))))))
      (rows beta))
    (broadcastInDim S50000x128 ![] bcast_S_S50000x128 (constant (F := Ideal) S_ .f32 0x00000000#32))

theorem normLayer_eq_of (h : FVec Ideal S50000x128 .f32) (gamma beta : FVec Ideal S128 .f32) :
    normLayer h gamma beta = normLayerOf h (colMean h) (colVar h) gamma beta := rfl

/-! ## The pieces read

Each piece is a fold of its operations over the contents it starts from; read at one buffer, the fold is the composed
term of the operations that feed that buffer, and that term is the stated stage by definition. -/

section Reads
variable (W : Valuation τ sig (Elt Ideal))

theorem s0_ends0 : after (seg0 (F := Ideal)) W (Proc.devRef .tc main_v3) = endsRow0 (W (Proc.devRef .tc main_arg1)) := by
  after_results_simp
  rfl
theorem s0_ends1 : after (seg0 (F := Ideal)) W (Proc.devRef .tc main_v6) = endsRow1 (W (Proc.devRef .tc main_arg1)) := by
  after_results_simp
  rfl
theorem s0_weight : after (seg0 (F := Ideal)) W (Proc.devRef .tc main_v27) = edgeWeight (W (Proc.devRef .tc main_arg1)) := by
  after_results_simp
  rfl

theorem s1_conv : after (seg1 (F := Ideal)) W (Proc.devRef .tc main_v43)
    = convOf (W (Proc.devRef .tc main_arg0)) (W (Proc.devRef .tc main_arg2)) (W (Proc.devRef .tc main_v3)) (W (Proc.devRef .tc main_v6)) (W (Proc.devRef .tc main_v27))
        (W (Proc.devRef .tc main_arg3)) := by
  after_results_simp
  rfl

theorem s2_mean : after (seg2 (F := Ideal)) W (Proc.devRef .tc main_v46) = colMean (W (Proc.devRef .tc main_v43)) := by
  after_results_simp
  rfl
theorem s2_var : after (seg2 (F := Ideal)) W (Proc.devRef .tc main_v47) = colVar (W (Proc.devRef .tc main_v43)) := by
  after_results_simp
  rfl

theorem s3_norm : after (seg3 (F := Ideal)) W (Proc.devRef .tc main_v63)
    = normLayerOf (W (Proc.devRef .tc main_v43)) (W (Proc.devRef .tc main_v46)) (W (Proc.devRef .tc main_v47)) (W (Proc.devRef .tc main_arg6)) (W (Proc.devRef .tc main_arg7)) := by
  after_results_simp
  rfl

theorem s4_out : after (seg4 (F := Ideal)) W (Proc.devRef .tc main_v80)
    = addf (W (Proc.devRef .tc main_v63))
        (convOf (W (Proc.devRef .tc main_v63)) (W (Proc.devRef .tc main_arg4)) (W (Proc.devRef .tc main_v3)) (W (Proc.devRef .tc main_v6)) (W (Proc.devRef .tc main_v27))
          (W (Proc.devRef .tc main_arg5))) := by
  after_results_simp
  rfl

end Reads

/-! ## The chain -/

/-- The whole fold read at the result buffer is the program's term of the arguments. -/
theorem out_term (V : Valuation τ sig (Elt Ideal)) :
    after (Cert.Gcn.RefRun.ops (F := Ideal)) V (Proc.devRef .tc main_v80)
      = refTerm (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, after_app, after_app, after_app, after_app]
  -- the last piece, over what the fourth leaves
  rw [s4_out, s3_norm, seg3_frame _ main_arg4 (by decide), seg3_frame _ main_arg5 (by decide),
    seg3_frame _ main_v3 (by decide), seg3_frame _ main_v6 (by decide), seg3_frame _ main_v27 (by decide)]
  -- over what the third leaves
  rw [s2_mean, s2_var, seg2_frame _ main_v43 (by decide), seg2_frame _ main_arg4 (by decide), seg2_frame _ main_arg5 (by decide),
    seg2_frame _ main_arg6 (by decide), seg2_frame _ main_arg7 (by decide),
    seg2_frame _ main_v3 (by decide), seg2_frame _ main_v6 (by decide), seg2_frame _ main_v27 (by decide)]
  -- over what the second leaves
  rw [s1_conv, seg1_frame _ main_arg4 (by decide), seg1_frame _ main_arg5 (by decide),
    seg1_frame _ main_arg6 (by decide), seg1_frame _ main_arg7 (by decide),
    seg1_frame _ main_v3 (by decide), seg1_frame _ main_v6 (by decide), seg1_frame _ main_v27 (by decide)]
  -- over what the first leaves
  rw [s0_ends0, s0_ends1, s0_weight, seg0_frame _ main_arg0 (by decide), seg0_frame _ main_arg2 (by decide),
    seg0_frame _ main_arg3 (by decide), seg0_frame _ main_arg4 (by decide), seg0_frame _ main_arg5 (by decide),
    seg0_frame _ main_arg6 (by decide), seg0_frame _ main_arg7 (by decide)]
  -- the stages over the edge table's ends and weights, and over the layer's own means and variances
  unfold refTerm
  rw [normLayer_eq_of, conv_eq_convOf, conv_eq_convOf]

/-- A buffer no piece writes keeps its contents. -/
theorem kept (V : Valuation τ sig (Elt Ideal)) (r : Ref sig .tc) (h0 : r ∉ seg0_W) (h1 : r ∉ seg1_W) (h2 : r ∉ seg2_W)
    (h3 : r ∉ seg3_W) (h4 : r ∉ seg4_W) :
    after (Cert.Gcn.RefRun.ops (F := Ideal)) V (Proc.devRef .tc r) = V (Proc.devRef .tc r) := by
  rw [ops_split, after_app, after_app, after_app, after_app, seg4_frame _ r h4, seg3_frame _ r h3, seg2_frame _ r h2,
    seg1_frame _ r h1, seg0_frame _ r h0]

/-- Every weakly fair execution of the reference terminates with the result buffer at the centred-variance form of the
    result of the arguments as launched, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80)
        = outCentered (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v80).trans ((out_term (launchContents m c)).trans (refTerm_eq _ _ _ _ _ _ _ _)),
      (h c main_arg0).trans (kept _ main_arg0 (by decide) (by decide) (by decide) (by decide) (by decide)),
      (h c main_arg1).trans (kept _ main_arg1 (by decide) (by decide) (by decide) (by decide) (by decide)),
      (h c main_arg2).trans (kept _ main_arg2 (by decide) (by decide) (by decide) (by decide) (by decide)),
      (h c main_arg3).trans (kept _ main_arg3 (by decide) (by decide) (by decide) (by decide) (by decide)),
      (h c main_arg4).trans (kept _ main_arg4 (by decide) (by decide) (by decide) (by decide) (by decide)),
      (h c main_arg5).trans (kept _ main_arg5 (by decide) (by decide) (by decide) (by decide) (by decide)),
      (h c main_arg6).trans (kept _ main_arg6 (by decide) (by decide) (by decide) (by decide) (by decide)),
      (h c main_arg7).trans (kept _ main_arg7 (by decide) (by decide) (by decide) (by decide) (by decide))⟩)
    (Cert.Gcn.RefRun.run_main m ρ)

end Cert.Gcn.RefValue

end
-- ==== Proof.DegPos.lean ====
/-
  Every node has positive finite degree: the degree is a count of edges (a finite sum of ones over the edges whose
  end is the node and in range), and the node's self edge is always among them.
-/
import proofs.«112645_j60576218742837_1_alg».proof.Proof.GcnSpec
import proofs.«112645_j60576218742837_1_alg».proof.Proof.LibLayout
import Idealize.ShloMosaic.Lib.Pipeline.Value
import Idealize.ShloMosaic.Lib.ValueLayout

noncomputable section

namespace Cert.Gcn.DegPos

open Idealize.ShloMosaic Idealize.ShloMosaic.ValueIdx Cert.Gcn

/-! ## Accumulating one value per row of a column of positions into a vector, at any extents -/

/-- A word that spells a natural number below 2³¹ reads, signed, as that number. -/
theorem toInt_ofNat_lt (a : ℕ) (ha : a < 2 ^ 31) : (BitVec.ofNat 32 a).toInt = (a : Int) := by
  rw [BitVec.toInt_eq_msb_cond, BitVec.msb_eq_false_iff_two_mul_lt.mpr (by simp [BitVec.toNat_ofNat]; omega)]
  simp [BitVec.toNat_ofNat]; omega

/-- An accumulation into a vector of N entries of one value per row of an [E, 1] column of positions (no window
    axes, the vector's one axis addressed by the column's one entry per row): row e lands at entry p when its
    position, read signed, is p. -/
theorem resultIdx?_col {N E w : Nat} (d : ScatterDims ⟨1, ![N]⟩ ⟨2, ![E, 1]⟩ ⟨1, ![E]⟩)
    (hiw : d.insertedWindowDims = [0]) (hsd : d.scatterDimsToOperandDims = [0]) (hiv : d.indexVectorDim = 1)
    (idx : IVec ⟨2, ![E, 1]⟩ w) (e : Fin E) (p : Fin N) (h : (idx (ix2 e (0 : Fin 1))).toInt = (p.val : Int)) :
    d.resultIdx? (ix1 e) idx = some (ix1 p) := by
  -- the start on the vector's one axis is the row's position
  have hstart : ∀ a, d.start (ix1 e) idx a = (p.val : Int) := fun a => by
    have ha : a = 0 := Subsingleton.elim _ _
    subst ha
    have hm : (0 : Fin 1) ∈ d.scatterDimsToOperandDims := by rw [hsd]; exact List.mem_singleton.mpr rfl
    unfold ScatterDims.start
    rw [dif_pos hm, ← h]
    congr 2
    funext b
    match b with
    | ⟨0, _⟩ =>
      unfold ScatterDims.siIdx
      rw [dif_neg (by rw [hiv]; simp)]
      unfold ScatterDims.siCoord
      apply Fin.ext
      simp only [Fin.val_cast]
      have e1 : ∀ X : Fin 1, ((ix1 e : (⟨1, ![E]⟩ : Shape).Idx) X).val = e.val := fun X => by
        have hX : X = 0 := Subsingleton.elim _ _
        subst hX; rfl
      exact e1 _
    | ⟨1, _⟩ =>
      unfold ScatterDims.siIdx
      rw [dif_pos (by rw [hiv])]
      apply Fin.ext
      show List.idxOf (0 : Fin 1) d.scatterDimsToOperandDims = 0
      rw [hsd]; simp
  -- there is no window coordinate: the vector's one axis is an inserted one
  have hwin : ∀ a, d.window (ix1 e) a = 0 := fun a => by
    have ha : a = 0 := Subsingleton.elim _ _
    subst ha
    unfold ScatterDims.window
    rw [dif_neg]
    rw [ScatterDims.sKept, hiw]
    simp [Shape.kept]
  have H : ∀ a, 0 ≤ d.start (ix1 e) idx a + d.window (ix1 e) a
      ∧ d.start (ix1 e) idx a + d.window (ix1 e) a < (⟨1, ![N]⟩ : Shape).size a := fun a => by
    rw [hstart a, hwin a]
    have ha : a = 0 := Subsingleton.elim _ _
    subst ha
    have := p.isLt
    show (0 : Int) ≤ (p.val : Int) + ((0 : Nat) : Int) ∧ (p.val : Int) + ((0 : Nat) : Int) < ((N : Nat) : Int)
    omega
  unfold ScatterDims.resultIdx?
  rw [dif_pos H]
  congr 1
  funext a
  apply Fin.ext
  show (d.start (ix1 e) idx a + d.window (ix1 e) a).toNat = ((ix1 p : (⟨1, ![N]⟩ : Shape).Idx) a).val
  rw [hstart a, hwin a]
  have ha : a = 0 := Subsingleton.elim _ _
  subst ha
  show ((p.val : Int) + ((0 : Nat) : Int)).toNat = p.val
  omega

/-! ## A sum of ones over a set that is not empty is a positive real number -/

/-- The word for 1.0 denotes the real number 1. -/
theorem ofBits_one : Ideal.ofBits .f32 0x3F800000#32 = ((1 : ℝ) : EReal) := by
  simp [Ideal.ofBits, Ideal.ieee, -EReal.coe_mul]; norm_num

/-- Zero plus a sum of ones over a set that is not empty: the set's cardinality, a positive real number. -/
theorem zero_add_sum_ones_pos {ι : Type} (S : Finset ι) (x0 : EReal) (upd : ι → EReal) (hx : x0 = 0)
    (hupd : ∀ j, upd j = ((1 : ℝ) : EReal)) (hS : S.Nonempty) :
    ∃ r : ℝ, 0 < r ∧ x0 + ∑ j ∈ S, upd j = (r : EReal) := by
  refine ⟨(S.card : ℝ), by exact_mod_cast Finset.card_pos.mpr hS, ?_⟩
  rw [hx, zero_add, Finset.sum_congr rfl (fun j _ => hupd j), Finset.sum_const, ← EReal.coe_nsmul, nsmul_one]

/-- An accumulation of ones into an array of zeros, whatever the shapes and the positions: at an entry where at
    least one update lands, the result is the number of updates landing there, a positive real number. -/
theorem scatterAdd_ones_pos {s si u : Shape} {w : Nat} (d : ScatterDims s si u) (a : FVec Ideal s .f32)
    (idx : IVec si w) (upd : FVec Ideal u .f32) (i : s.Idx) (ha : a i = 0) (hu : ∀ j, upd j = ((1 : ℝ) : EReal))
    (j0 : u.Idx) (hj : d.resultIdx? j0 idx = some i) :
    ∃ r : ℝ, 0 < r ∧ Host.scatterAdd d a idx upd i = (r : EReal) := by
  show ∃ r : ℝ, 0 < r ∧ Ideal.hostScatterAdd d a idx upd i = (r : EReal)
  unfold Ideal.hostScatterAdd
  exact zero_add_sum_ones_pos _ _ _ ha hu ⟨j0, Finset.mem_filter.mpr ⟨Finset.mem_univ _, hj⟩⟩

/-! ## The degree of a node -/

/-- The end of the self edge of node p (edge number 800000 + p) is p itself. -/
theorem selfEdge_end (ei : IVec SEI 32) (p : Fin 50000) (e : Fin 850000) (he : e.val = 800000 + p.val) :
    endsRow1 ei (ix1 e) = iotaInDim SN 32 0 (ix1 p) := by
  unfold endsRow1
  refine concatenate_pair_apply_right (t := SE) (s₁ := SE0) (s₂ := SN) (0 : Fin 1) _ _ concats_SE (ix1 e) rfl rfl (ix1 p)
    (fun b hb => absurd (Subsingleton.elim _ _) hb) ?_
  show p.val + 800000 = e.val
  omega

/-- So the self edge of node p is accumulated at p. -/
theorem selfEdge_lands (ei : IVec SEI 32) (p : Fin 50000) (e : Fin 850000) (he : e.val = 800000 + p.val) :
    scatNode.resultIdx? (ix1 e) (plainCol (endsRow1 ei)) = some (ix1 p) := by
  refine resultIdx?_col scatNode rfl rfl rfl _ e p ?_
  have h1 : plainCol (endsRow1 ei) (ix2 e (0 : Fin 1)) = endsRow1 ei (ix1 e) :=
    LibLayout.broadcastInDim_a_a1_apply (endsRow1 ei) bcast_SE_SEc e 0
  rw [h1, selfEdge_end ei p e he]
  exact toInt_ofNat_lt p.val (by have := p.isLt; omega)

/-- The accumulation starts from zero. -/
theorem zeros_apply (p : Fin 50000) :
    broadcastInDim SN ![] bcast_S0_SN (constant (F := Ideal) S0 .f32 0x00000000#32) (ix1 p) = 0 := by
  rw [LibLayout.broadcastInDim_scalar_apply]
  exact Ideal.ofBits_zero_f32

/-- Every edge adds a one. -/
theorem ones_apply (j : SE.Idx) :
    broadcastInDim SE ![] bcast_S0_SE (constant (F := Ideal) S0 .f32 0x3F800000#32) j = ((1 : ℝ) : EReal) := by
  rw [LibLayout.broadcastInDim_scalar_apply]
  exact ofBits_one

theorem deg_pos (ei : IVec SEI 32) (v : SN.Idx) : ∃ r : ℝ, 0 < r ∧ deg ei v = (r : EReal) := by
  obtain ⟨p, rfl⟩ : ∃ p : Fin 50000, v = ix1 p := ⟨v 0, eq_ix1 v⟩
  have hp := p.isLt
  -- the self edge of node p: edge number 800000 + p
  obtain ⟨e, he⟩ : ∃ e : Fin 850000, e.val = 800000 + p.val := ⟨⟨800000 + p.val, by omega⟩, rfl⟩
  -- the degree is an accumulation of ones from zero, and the self edge is accumulated at p
  exact scatterAdd_ones_pos scatNode (broadcastInDim SN ![] bcast_S0_SN (constant (F := Ideal) S0 .f32 0x00000000#32))
    (plainCol (endsRow1 ei)) (broadcastInDim SE ![] bcast_S0_SE (constant (F := Ideal) S0 .f32 0x3F800000#32))
    (ix1 p) (zeros_apply p) ones_apply (ix1 e) (selfEdge_lands ei p e he)

end Cert.Gcn.DegPos

end
-- ==== Proof.Finite.lean ====
/-
  Finiteness: from finite features, weights and bias, layer 1 before normalisation is finite at every entry. The
  edge weights are products of inverse square roots of positive finite degrees; a read returns an entry of what it
  reads; an aggregation is a finite sum of products of finite numbers.
-/
import proofs.«112645_j60576218742837_1_alg».proof.Proof.GcnSpec
import proofs.«112645_j60576218742837_1_alg».proof.Proof.LibLayout
import proofs.«112645_j60576218742837_1_alg».proof.Proof.DegPos
import Idealize.ShloMosaic.Lib.Pipeline.Value
import Idealize.ShloMosaic.Lib.ValueLayout

noncomputable section

namespace Cert.Gcn.Finite

open Idealize.ShloMosaic Idealize.ShloMosaic.ValueIdx Cert.Gcn

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i ∈ s, IsReal (f i)) : IsReal (∑ i ∈ s, f i) := by
  classical
  -- one summand at a time: the empty sum is 0, and a real plus a real is real
  induction s using Finset.induction_on with
  | empty => exact ⟨0, by simp⟩
  | insert a s ha ih =>
    rw [Finset.sum_insert ha]
    exact IsReal.add (h a (Finset.mem_insert_self a s)) (ih fun i hi => h i (Finset.mem_insert_of_mem hi))

/-! ## The operations, one by one, at any extents: each keeps finite entries finite -/

section General

variable {s t : Shape} {φ : FTy}

/-- Zero, as both programs spell it, is the real number 0. -/
theorem zero_isReal : IsReal (Ideal.ofBits .f32 0x00000000#32) := ⟨0, by rw [Ideal.ofBits_zero_f32]; simp⟩

/-- The inverse square root of a positive real is the real r^(-1/2). -/
theorem rsqrt_isReal_of_pos {v : EReal} (h : ∃ r : ℝ, 0 < r ∧ v = (r : EReal)) : IsReal (Ideal.rsqrt v) := by
  obtain ⟨r, hr, rfl⟩ := h
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- The host's entrywise inverse square root, at an entry that is a positive real. -/
theorem hostRsqrt_isReal (a : FVec Ideal s φ) (i : s.Idx) (h : ∃ r : ℝ, 0 < r ∧ a i = (r : EReal)) :
    IsReal (Host.rsqrt a i) :=
  rsqrt_isReal_of_pos h

/-- A read returns an entry of what it reads, whatever the positions. -/
theorem gather_isReal {si : Shape} {w : Nat} (d : GatherDims s si t) (a : FVec Ideal s φ) (idx : IVec si w)
    (ha : ∀ k, IsReal (a k)) (j : t.Idx) : IsReal (Host.gather d a idx j) :=
  ha (d.operandIdx j idx)

/-- A broadcast reads, at every index, an entry of its operand. -/
theorem broadcastInDim_isReal (dims : Fin s.rank → Fin t.rank) (h : s.BroadcastsInDim t dims) (a : FVec Ideal s φ)
    (ha : ∀ k, IsReal (a k)) (j : t.Idx) : IsReal (broadcastInDim t dims h a j) := by
  unfold broadcastInDim
  exact ha _

/-- An entrywise product of finite arrays is finite. -/
theorem mulf_isReal (a b : FVec Ideal s φ) (ha : ∀ k, IsReal (a k)) (hb : ∀ k, IsReal (b k)) (i : s.Idx) :
    IsReal (mulf a b i) := by
  rw [mulf_apply]; exact IsReal.mul (ha i) (hb i)

/-- An accumulation adds to each entry a finite sum of updates: finite when the start and the updates are,
    whichever updates land where. -/
theorem scatterAdd_isReal {si u : Shape} {w : Nat} (d : ScatterDims s si u) (a : FVec Ideal s φ) (idx : IVec si w)
    (upd : FVec Ideal u φ) (ha : ∀ k, IsReal (a k)) (hu : ∀ j, IsReal (upd j)) (i : s.Idx) :
    IsReal (Host.scatterAdd d a idx upd i) := by
  show IsReal (Ideal.hostScatterAdd d a idx upd i)
  unfold Ideal.hostScatterAdd
  exact IsReal.add (ha i) (IsReal.sum _ _ fun j _ => hu j)

/-- The zero array is finite. -/
theorem zeros_isReal (h : S0.BroadcastsInDim t (![] : Fin 0 → Fin t.rank)) (j : t.Idx) :
    IsReal (broadcastInDim t ![] h (constant (F := Ideal) S0 .f32 0x00000000#32) j) :=
  broadcastInDim_isReal _ h _ (fun k => by rw [constant_apply]; exact zero_isReal) j

end General

/-! ## This graph's arrays -/

/-- deg^(-1/2) is finite at every node: the degree is a positive real. -/
theorem dis_isReal (ei : IVec SEI 32) (v : SN.Idx) : IsReal (dis ei v) := by
  unfold dis
  exact hostRsqrt_isReal (deg ei) v (DegPos.deg_pos ei v)

/-- Every edge weight is finite: a product of two entries of deg^(-1/2). -/
theorem edgeWeight_isReal (ei : IVec SEI 32) (j : SEc.Idx) : IsReal (edgeWeight ei j) := by
  unfold edgeWeight
  exact broadcastInDim_isReal _ _ _
    (mulf_isReal _ _ (gather_isReal gathNode (dis ei) _ (dis_isReal ei)) (gather_isReal gathNode (dis ei) _ (dis_isReal ei))) j

/-- The aggregation of finite projected features is finite: zero plus a finite sum of products of a feature
    and an edge weight. -/
theorem agg_isReal (hw : FVec Ideal SX .f32) (ei : IVec SEI 32) (h : ∀ i, IsReal (hw i)) : ∀ i, IsReal (agg hw ei i) := by
  intro i
  unfold agg
  exact scatterAdd_isReal scatRow _ _ _ (zeros_isReal bcast_S0_SX)
    (mulf_isReal _ _ (gather_isReal gathRow hw _ h) (broadcastInDim_isReal _ _ _ (edgeWeight_isReal ei))) i

/-- An entry of a product of finite matrices is a finite sum of products of finite numbers. -/
theorem mmAt_isReal (x : FVec Ideal SX .f32) (W : FVec Ideal SW .f32) (hx : ∀ i, IsReal (x i)) (hW : ∀ i, IsReal (W i))
    (p : Fin 50000) (q : Fin 128) : IsReal (mmAt x W p q) := by
  unfold mmAt
  exact IsReal.sum _ _ fun k _ => IsReal.mul (hx _) (hW _)

/-- Layer 1 before normalisation is finite wherever the features, the first weight matrix and the first bias are. -/
theorem preNorm_isReal (x : FVec Ideal SX .f32) (ei : IVec SEI 32) (W1 : FVec Ideal SW .f32) (b1 : FVec Ideal SB .f32)
    (hx : ∀ i, IsReal (x i)) (hW : ∀ i, IsReal (W1 i)) (hb : ∀ i, IsReal (b1 i)) : ∀ i, IsReal (preNorm x ei W1 b1 i) := by
  intro i
  unfold preNorm
  rw [arr2_apply]
  -- the aggregation of the projected features, plus the bias
  exact IsReal.add (agg_isReal _ ei (fun k => by rw [arr2_apply]; exact mmAt_isReal x W1 hx hW _ _) _) (hb _)

end Cert.Gcn.Finite

end
-- ==== Proof.Bridge.lean ====
/-
  The two results are one function of finite inputs: the two variances agree on the finite columns of layer 1 before
  normalisation, and the last sum is the same sum bracketed the other way.
-/
import proofs.«112645_j60576218742837_1_alg».proof.Proof.GcnSpec
import proofs.«112645_j60576218742837_1_alg».proof.Proof.Finite
import proofs.«112645_j60576218742837_1_alg».proof.Proof.Variance

noncomputable section

namespace Cert.Gcn.Bridge

open Idealize.ShloMosaic Idealize.ShloMosaic.ValueIdx Cert.Gcn

theorem out_eq (x : FVec Ideal SX .f32) (ei : IVec SEI 32) (W1 : FVec Ideal SW .f32) (b1 : FVec Ideal SB .f32)
    (W2 : FVec Ideal SW .f32) (b2 gamma beta : FVec Ideal SB .f32)
    (hx : ∀ i, IsReal (x i)) (hW : ∀ i, IsReal (W1 i)) (hb : ∀ i, IsReal (b1 i)) :
    outMoments x ei W1 b1 W2 b2 gamma beta = outCentered x ei W1 b1 W2 b2 gamma beta := by
  have hv : varMomentsAt (preNorm x ei W1 b1) = varCenteredAt (preNorm x ei W1 b1) :=
    funext fun q => Variance.var_eq _ (Finite.preNorm_isReal x ei W1 b1 hx hW hb) q
  unfold outMoments outCentered
  rw [hv]
  funext i
  simp only [arr2_apply]
  exact add_assoc _ _ _

end Cert.Gcn.Bridge

end
-- ==== Proof.PreFinite.lean ====
/-
  The precondition says every float input is finite; read here for the three inputs whose finiteness the proof uses:
  the features, the first weight matrix and the first bias.
-/
import proofs.«112645_j60576218742837_1_alg».proof.Proof.Gen.KernelIdeal
import proofs.«112645_j60576218742837_1_alg».proof.Proof.Gen.Pre_finite_inputs
import proofs.«112645_j60576218742837_1_alg».proof.Proof.GcnSpec
import Idealize.ShloMosaic.Lib.ReduceAll
import Idealize.ShloMosaic.Lib.ValueIdx
import proofs.«112645_j60576218742837_1_alg».proof.Defs

noncomputable section

namespace Cert.Gcn.PreFinite

open Idealize.ShloMosaic Idealize.ShloMosaic.ValueIdx Idealize.SL.Sem Cert.Gcn Cert.KernelIdeal

/-- The shape with no axes has one index. -/
private instance subsingleton_scalar_idx : Subsingleton Cert.Pre_finite_inputs.S_.Idx :=
  ⟨fun a b => funext fun d => d.elim0⟩

/-- The pattern the predicate compares against denotes +∞. -/
private theorem ofBits_inf : Ideal.ofBits .f32 0x7F800000#32 = (⊤ : EReal) := by
  simp [Ideal.ofBits, Ideal.ieee]

/-- An extended real whose absolute value max x (-x) is strictly below +∞ is a real number: the absolute value of
    either infinity is +∞. -/
private theorem isReal_of_abs_lt (x : EReal)
    (hx : Ideal.cmp .olt (max x (-x)) (Ideal.ofBits .f32 0x7F800000#32) = 1#1) : IsReal x := by
  rw [ofBits_inf] at hx
  induction x using EReal.rec with
  | bot => simp [Ideal.cmp] at hx
  | coe r => exact ⟨r, rfl⟩
  | top => simp [Ideal.cmp] at hx

/-- A conjunction of two truth values at the one index is 1 exactly when both are. -/
private theorem andi_ix0 (a b : IVec Cert.Pre_finite_inputs.S_ 1) :
    andi a b ix0 = 1#1 ↔ a ix0 = 1#1 ∧ b ix0 = 1#1 := IntOp.andi_eq_one

theorem real_of_pre (m : (ℓ : Loc nD τ sig) → Buf (Elt Ideal) ℓ) (h : Cert.Pre_KernelIdeal m) (c : Dev nD) :
    (∀ i, IsReal (m ((c.tc : Thread nD τ).loc main_arg0) i))
    ∧ (∀ i, IsReal (m ((c.tc : Thread nD τ).loc main_arg2) i))
    ∧ (∀ i, IsReal (m ((c.tc : Thread nD τ).loc main_arg3) i)) := by
  have h0 := congrFun (h c) ValueIdx.ix0
  dsimp only [Cert.Pre_finite_inputs.fn, Cert.Pre_finite_inputs.fn_part1] at h0
  obtain ⟨h6, -⟩ := (andi_ix0 _ _).1 h0
  obtain ⟨h5, -⟩ := (andi_ix0 _ _).1 h6
  obtain ⟨h4, -⟩ := (andi_ix0 _ _).1 h5
  obtain ⟨h3, -⟩ := (andi_ix0 _ _).1 h4
  obtain ⟨h2, hb⟩ := (andi_ix0 _ _).1 h3
  obtain ⟨hx, hW⟩ := (andi_ix0 _ _).1 h2
  exact ⟨fun i => isReal_of_abs_lt _ (Host.reduce_andi_all _ _ _ _ _ hx i),
    fun i => isReal_of_abs_lt _ (Host.reduce_andi_all _ _ _ _ _ hW i),
    fun i => isReal_of_abs_lt _ (Host.reduce_andi_all _ _ _ _ _ hb i)⟩

end Cert.Gcn.PreFinite

end
-- ==== Proof.lean ====
/-
  A two-layer graph convolution with batch normalisation between the layers, computed two ways, is one function of
  finite inputs.

  Both programs build the same edge list (the 800000 given edges and one self edge per node) and the same edge
  weights deg(start)^(-1/2) * deg(end)^(-1/2), and aggregate projected features over the edges with the same host
  operations. They differ in three places. The kernel program projects with ten row-block matrix products on the
  matrix unit where the reference has one host product: at the ideal instance both are the sum over the shared
  coordinate. The kernel program takes each column's variance as the mean of the squares minus the square of the
  mean, from column sums it accumulates block by block, where the reference takes the mean of the squared distances
  to the mean: for a column of real numbers these agree, and the columns are real because every degree is at least
  one (the self edge), so every edge weight is finite, and a read returns an entry and an accumulation is a finite
  sum. And the last sum is bracketed the other way, which no sum of extended reals notices.

  The frames of the two kernel programs are the generated ones; the reference's frame is its run with the result
  forgotten; nothing was rewritten by the idealisation, so there is nothing to preserve.
-/
import proofs.«112645_j60576218742837_1_alg».proof.Defs
import proofs.«112645_j60576218742837_1_alg».proof.Proof.Gen.Kernel
import proofs.«112645_j60576218742837_1_alg».proof.Proof.Gen.Kernel.Frame
import proofs.«112645_j60576218742837_1_alg».proof.Proof.Gen.KernelIdeal
import proofs.«112645_j60576218742837_1_alg».proof.Proof.Gen.KernelIdeal.Frame
import proofs.«112645_j60576218742837_1_alg».proof.Proof.Gen.ReferenceIdeal
import proofs.«112645_j60576218742837_1_alg».proof.Proof.Gen.Pre_finite_inputs
import proofs.«112645_j60576218742837_1_alg».proof.Proof.GcnSpec
import proofs.«112645_j60576218742837_1_alg».proof.Proof.KernelRun
import proofs.«112645_j60576218742837_1_alg».proof.Proof.KernelValue
import proofs.«112645_j60576218742837_1_alg».proof.Proof.RefValue
import proofs.«112645_j60576218742837_1_alg».proof.Proof.Bridge
import proofs.«112645_j60576218742837_1_alg».proof.Proof.PreFinite

noncomputable section

namespace Cert.Proof

open Idealize.ShloMosaic Idealize.SL.Sem Cert.Gcn

/-- The kernel program's run ends with its result at the moments form of the result; the reference's at the centred
    form; on finite features, first weights and first bias the two forms are one array. -/
theorem algebraic : Cert.algebraic_KernelIdeal_ReferenceIdeal := by
  intro m ρ m' ρ' hpre hagree
  refine ⟨fun c => outMoments (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.KernelValue.result_eq m ρ c), (h c).2⟩)
      (Cert.KernelIdeal.ResultRun.run_result (F := Ideal) m ρ)
  · refine (θ_run Cert.ReferenceIdeal.defs _ _).mono (fun _ h c => ⟨(h c).1.trans ?_, (h c).2⟩)
      (Cert.Gcn.RefValue.run m' ρ')
    obtain ⟨hx, hW, hb⟩ := Cert.Gcn.PreFinite.real_of_pre m hpre c
    obtain ⟨e0, e1, e2, e3, e4, e5, e6, e7⟩ := hagree c
    rw [e0, e1, e2, e3, e4, e5, e6, e7]
    exact (Cert.Gcn.Bridge.out_eq _ _ _ _ _ _ _ _ hx hW hb).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.Gcn.RefValue.run m ρ),
  trivial,
  algebraic⟩

end Cert.Proof

end
